-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S14336x4096 : Shape := ⟨2, ![14336, 4096]⟩
abbrev S4096x14336 : Shape := ⟨2, ![4096, 14336]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S14336x4096 : S_.BroadcastsInDim S14336x4096 (![] : Fin 0 → Fin S14336x4096.rank)
  reducesTo_S14336x4096_S_d0_1 : S14336x4096.ReducesTo [0, 1] S_
  bcast_S_S4096x14336 : S_.BroadcastsInDim S4096x14336 (![] : Fin 0 → Fin S4096x14336.rank)
  reducesTo_S4096x14336_S_d0_1 : S4096x14336.ReducesTo [0, 1] S_

variable [Facts]

def fn_part1 {F : FTy → Type} [FloatOps F] (main_v13 : IVec S_ 1) (main_v16 : IVec S4096x14336 1) : IVec S_ 1 :=
  let main_c_5 : IVec S_ 1 := constantI S_ 1 1#1
  let main_v17 : IVec S_ 1 := (fun x v => Host.reduce IntOp.andi x v reducesTo_S4096x14336_S_d0_1 h_S_) main_v16 main_c_5
  let main_v18 : IVec S_ 1 := andi main_v13 main_v17
  main_v18

def fn {F : FTy → Type} [FloatOps F] (main_arg0 : FVec F S2x2048x4096 .f32) (main_arg1 : FVec F S14336x4096 .f32) (main_arg2 : FVec F S14336x4096 .f32) (main_arg3 : FVec F S4096x14336 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  let main_v9 : FVec F S14336x4096 .f32 := Host.absf main_arg2
  let main_cst_2 : FVec F S_ .f32 := constant S_ .f32 0x7F800000#32
  let main_v10 : FVec F S14336x4096 .f32 := broadcastInDim S14336x4096 ![] bcast_S_S14336x4096 main_cst_2
  let main_v11 : IVec S14336x4096 1 := cmpf .olt main_v9 main_v10
  let main_c_3 : IVec S_ 1 := constantI S_ 1 1#1
  let main_v12 : IVec S_ 1 := (fun x v => Host.reduce IntOp.andi x v reducesTo_S14336x4096_S_d0_1 h_S_) main_v11 main_c_3
  let main_v13 : IVec S_ 1 := andi main_v8 main_v12
  let main_v14 : FVec F S4096x14336 .f32 := Host.absf main_arg3
  let main_cst_4 : FVec F S_ .f32 := constant S_ .f32 0x7F800000#32
  let main_v15 : FVec F S4096x14336 .f32 := broadcastInDim S4096x14336 ![] bcast_S_S4096x14336 main_cst_4
  let main_v16 : IVec S4096x14336 1 := cmpf .olt main_v14 main_v15
  fn_part1 (F := F) main_v13 main_v16
-- ==== Kernel.lean ====
abbrev S2x2048x4096 : Shape := ⟨3, ![2, 2048, 4096]⟩
abbrev S14336x4096 : Shape := ⟨2, ![14336, 4096]⟩
abbrev S4096x14336 : Shape := ⟨2, ![4096, 14336]⟩
abbrev S4096x4096 : Shape := ⟨2, ![4096, 4096]⟩
abbrev S256x4096 : Shape := ⟨2, ![256, 4096]⟩
abbrev S1024x4096 : Shape := ⟨2, ![1024, 4096]⟩
abbrev S256x1024 : Shape := ⟨2, ![256, 1024]⟩
abbrev S512x1024 : Shape := ⟨2, ![512, 1024]⟩
abbrev S4096x1024 : Shape := ⟨2, ![4096, 1024]⟩
abbrev S512x4096 : Shape := ⟨2, ![512, 4096]⟩

abbrev nBuf : Space → Nat
  | .hbm => 12
  | .vmem => 15
  | .smem => 0
  | _ => 0

abbrev bufTy : (tb : Table) → Fin (tcTables nBuf tb) → BufTy
  | .hbm, ⟨0, _⟩ => ⟨S2x2048x4096, .f32⟩
  | .hbm, ⟨1, _⟩ => ⟨S14336x4096, .f32⟩
  | .hbm, ⟨2, _⟩ => ⟨S14336x4096, .f32⟩
  | .hbm, ⟨3, _⟩ => ⟨S4096x14336, .f32⟩
  | .hbm, ⟨4, _⟩ => ⟨S4096x4096, .f32⟩
  | .hbm, ⟨5, _⟩ => ⟨S4096x4096, .bf16⟩
  | .hbm, ⟨6, _⟩ => ⟨S14336x4096, .bf16⟩
  | .hbm, ⟨7, _⟩ => ⟨S14336x4096, .bf16⟩
  | .hbm, ⟨8, _⟩ => ⟨S4096x14336, .bf16⟩
  | .hbm, ⟨9, _⟩ => ⟨S4096x14336, .bf16⟩
  | .hbm, ⟨10, _⟩ => ⟨S4096x4096, .f32⟩
  | .hbm, ⟨11, _⟩ => ⟨S2x2048x4096, .f32⟩
  | .local _ .vmem, ⟨0, _⟩ => ⟨S256x4096, .bf16⟩
  | .local _ .vmem, ⟨1, _⟩ => ⟨S256x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x4096, .bf16⟩
  | .local _ .vmem, ⟨5, _⟩ => ⟨S1024x4096, .bf16⟩
  | .local _ .vmem, ⟨6, _⟩ => ⟨S256x1024, .bf16⟩
  | .local _ .vmem, ⟨7, _⟩ => ⟨S256x1024, .bf16⟩
  | .local _ .vmem, ⟨8, _⟩ => ⟨S512x1024, .bf16⟩
  | .local _ .vmem, ⟨9, _⟩ => ⟨S512x1024, .bf16⟩
  | .local _ .vmem, ⟨10, _⟩ => ⟨S4096x1024, .bf16⟩
  | .local _ .vmem, ⟨11, _⟩ => ⟨S4096x1024, .bf16⟩
  | .local _ .vmem, ⟨12, _⟩ => ⟨S512x4096, .f32⟩
  | .local _ .vmem, ⟨13, _⟩ => ⟨S512x4096, .f32⟩
  | .local _ .vmem, ⟨14, _⟩ => ⟨S512x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![14, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 14], ![false, false]⟩

def k1_cond2 (i : grid1.Coords) : BitVec 1 :=
  let arg1 : BitVec 32 := BitVec.ofNat 32 (i 1).val
  let c13_i32 : BitVec 32 := 13#32
  let v13 : BitVec 1 := Scalar.cmpi .eq arg1 c13_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S2x2048x4096_S4096x4096 : S2x2048x4096.ShapeCasts S4096x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x1024_S256x1024_0_0 : ∀ a, (![0, 0] : Fin 2 → Nat) a + S256x1024.size a ≤ S256x1024.size a
  h_S256x1024 : 0 < S256x1024.numel
  packedbf16_S256x1024_S256x1024_0_0 : (Rect.unit (s := S256x1024) ![0, 0] S256x1024.size inb_S256x1024_S256x1024_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  shapeCasts_S4096x4096_S2x2048x4096 : S4096x4096.ShapeCasts S2x2048x4096
  dot_S256x4096_S1024x4096_S256x1024_1_1_0_0_n_n_wf : DotDims.WF S256x4096 S1024x4096 S256x1024 [1] [1] [0] [0] [] []
  dot_S512x1024_S4096x1024_S512x4096_1_1_0_0_n_n_wf : DotDims.WF S512x1024 S4096x1024 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .bf16 = 32 ∨ (Rect.block (s := S4096x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S14336x4096.size a
  hwx0_1 : ∀ i : grid0.Coords, EltTy.bits .bf16 = 32 ∨ (Rect.block (s := S14336x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S14336x4096.size a
  hwx0_2 : ∀ i : grid0.Coords, EltTy.bits .bf16 = 32 ∨ (Rect.block (s := S14336x4096) S1024x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x14336.size a
  hwx0_3 : ∀ i : grid0.Coords, EltTy.bits .bf16 = 32 ∨ (Rect.block (s := S4096x14336) S256x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x14336.size a
  hwx1_0 : ∀ i : grid1.Coords, EltTy.bits .bf16 = 32 ∨ (Rect.block (s := S4096x14336) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x14336.size a
  hwx1_1 : ∀ i : grid1.Coords, EltTy.bits .bf16 = 32 ∨ (Rect.block (s := S4096x14336) S4096x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S4096x4096.size a
  hwx1_2 : ∀ i : grid1.Coords, EltTy.bits .f32 = 32 ∨ (Rect.block (s := S4096x4096) S512x4096.size (cc1_transform_2 i) (hinb1_2 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf
def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4096x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S14336x4096 : Shape := ⟨2, ![14336, 4096]⟩
abbrev S4096x14336 : Shape := ⟨2, ![4096, 14336]⟩
abbrev S2x2048x14336 : Shape := ⟨3, ![2, 2048, 14336]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S14336x4096, .f32⟩
  | .hbm, ⟨2, _⟩ => ⟨S14336x4096, .f32⟩
  | .hbm, ⟨3, _⟩ => ⟨S4096x14336, .f32⟩
  | .hbm, ⟨4, _⟩ => ⟨S2x2048x14336, .f32⟩
  | .hbm, ⟨5, _⟩ => ⟨S2x2048x14336, .f32⟩
  | .hbm, ⟨6, _⟩ => ⟨S2x2048x14336, .f32⟩
  | .hbm, ⟨7, _⟩ => ⟨S2x2048x14336, .f32⟩
  | .hbm, ⟨8, _⟩ => ⟨S_, .f32⟩
  | .hbm, ⟨9, _⟩ => ⟨S2x2048x14336, .f32⟩
  | .hbm, ⟨10, _⟩ => ⟨S2x2048x14336, .f32⟩
  | .hbm, ⟨11, _⟩ => ⟨S_, .f32⟩
  | .hbm, ⟨12, _⟩ => ⟨S2x2048x14336, .f32⟩
  | .hbm, ⟨13, _⟩ => ⟨S2x2048x14336, .f32⟩
  | .hbm, ⟨14, _⟩ => ⟨S2x2048x14336, .f32⟩
  | .hbm, ⟨15, _⟩ => ⟨S2x2048x14336, .f32⟩
  | .hbm, ⟨16, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S2x2048x14336 : S_.BroadcastsInDim S2x2048x14336 (![] : Fin 0 → Fin S2x2048x14336.rank)
  dot_S2x2048x4096_S14336x4096_S2x2048x14336_2_1_01_0_n_n_wf : DotDims.WF S2x2048x4096 S14336x4096 S2x2048x14336 [2] [1] [0, 1] [0] [] []
  dot_S2x2048x14336_S4096x14336_S2x2048x4096_2_1_01_0_n_n_wf : DotDims.WF S2x2048x14336 S4096x14336 S2x2048x4096 [2] [1] [0, 1] [0] [] []

variable [Facts₀]

def dot_S2x2048x4096_S14336x4096_S2x2048x14336_2_1_01_0_n_n : DotDims S2x2048x4096 S14336x4096 S2x2048x14336 where
  lhsContracting := [2]
  rhsContracting := [1]
  lhsNonContracting := [0, 1]
  rhsNonContracting := [0]
  lhsBatch := []
  rhsBatch := []
  wf := dot_S2x2048x4096_S14336x4096_S2x2048x14336_2_1_01_0_n_n_wf
def dot_S2x2048x14336_S4096x14336_S2x2048x4096_2_1_01_0_n_n : DotDims S2x2048x14336 S4096x14336 S2x2048x4096 where
  lhsContracting := [2]
  rhsContracting := [1]
  lhsNonContracting := [0, 1]
  rhsNonContracting := [0]
  lhsBatch := []
  rhsBatch := []
  wf := dot_S2x2048x14336_S4096x14336_S2x2048x4096_2_1_01_0_n_n_wf

class Facts : Prop extends Facts₀ where

variable [Facts]
-- ==== Proof.K.GateUpData.lean ====
/-
  The gate/up projection call, point by point: what each grid point is handed and what it leaves.

  The grid is 14 × 16: the slow coordinate n picks a stretch of 1024 rows of the two weight matrices, the fast coordinate
  m a stretch of 256 rows of the activations. A point loads its three input blocks whole, forms the two products
  x·Wgᵀ and x·Wuᵀ, multiplies silu of the first by the second and stores the 256 × 1024 result whole into its output
  block, which the pipeline writes back at block (m, n). Nothing is kept between points.
-/
import proofs.«175266_j37907381355066_1_alg».proof.Proof.Gen.Kernel.Launch
import proofs.«175266_j37907381355066_1_alg».proof.Proof.Gen.Kernel.Skeleton
import proofs.«175266_j37907381355066_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole activation block, the whole weight block, the whole output block. -/
abbrev rX0 : Rect S256x4096 := Rect.unit (s := S256x4096) ![0, 0] S256x4096.size inb_S256x4096_S256x4096_0_0
abbrev rW0 : Rect S1024x4096 := Rect.unit (s := S1024x4096) ![0, 0] S1024x4096.size inb_S1024x4096_S1024x4096_0_0
abbrev rO0 : Rect S256x1024 := Rect.unit (s := S256x1024) ![0, 0] S256x1024.size inb_S256x1024_S256x1024_0_0

/-- What a point leaves in its output block, from its three input blocks: the one whole store. -/
def out0_3 (x0 : Vec F S256x4096 .bf16) (x1 : Vec F S1024x4096 .bf16) (x2 : Vec F S1024x4096 .bf16) : Vec F S256x1024 .bf16 :=
  View.canon [⟨rO0, k0_pay1 (View.ld x0 rX0) (View.ld x1 rW0) (View.ld x2 rW0)⟩]

/-- The call's proof data on core `c`: the arrays as the call finds them; each input block left in place, the output
    block at the body's store; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.Kernel.Hand

end
-- ==== Proof.K.DownData.lean ====
/-
  The down projection call, point by point: what each grid point is handed, what it leaves, and what the accumulator
  holds between points.

  The grid is 8 × 14: the slow coordinate picks a stretch of 512 rows, the fast coordinate k a stretch of 1024 columns of
  the contracted axis. A point with k = 0 first clears the accumulator; every point then adds the product of its two
  input blocks to the accumulator; a point with k = 13 copies the accumulator into the output block, which the pipeline
  writes back there and only there. So after the point numbered n the accumulator holds the sum of the products of the
  points n - (n mod 14), …, n, each added to the one before, starting from a block of zeros.
-/
import proofs.«175266_j37907381355066_1_alg».proof.Proof.Gen.Kernel.Launch
import proofs.«175266_j37907381355066_1_alg».proof.Proof.Gen.Kernel.Skeleton
import proofs.«175266_j37907381355066_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, decided over the grid -/

/-- "k = 0", as the body computes it. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 14 = 0 :=
  (by decide +kernel : ∀ t : Fin grid1.N, cond1_0 (grid1.coords t) ↔ t.val % 14 = 0)

/-- "k = 13", as the body computes it. -/
abbrev cond1_1 (i : grid1.Coords) : Prop := k1_cond2 i = 1#1
theorem hcond1_1 : ∀ t : Fin cfg1.N, cond1_1 (grid1.coords t) ↔ t.val % 14 = 13 :=
  (by decide +kernel : ∀ t : Fin grid1.N, cond1_1 (grid1.coords t) ↔ t.val % 14 = 13)

/-- The input windows are never idle; the output window is idle, and not written back, exactly off k = 13. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## Blocks and the accumulator -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator, a whole scoped buffer of the call's own. -/
abbrev scM1 : Memref sig .tc .vmem S512x4096 .f32 := Memref.whole cc1_scratch0

/-- What the accumulator holds after the point numbered `n`: the point's product added to a block of zeros when the
    point's k is 0, and to what the point before left otherwise. -/
def accAt1 (c : Dev nD) : (n : ℕ) → n < cfg1.N → Vec F S512x4096 .f32
  | 0, hn => k1_pay2 (iblk1 V c 0 ⟨0, hn⟩) (iblk1 V c 1 ⟨0, hn⟩) (k1_pay1 (F := F))
  | n + 1, hn =>
    if (n + 1) % 14 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

/-- At a point with k = 0. -/
theorem accAt1_reset (c : Dev nD) (t : Fin cfg1.N) (h0 : t.val % 14 = 0) :
    accAt1 V c t.val t.isLt = k1_pay2 (iblk1 V c 0 t) (iblk1 V c 1 t) (k1_pay1 (F := F)) := by
  obtain ⟨n, hn⟩ := t
  cases n with
  | zero => rfl
  | succ n => exact if_pos h0

/-- At a point with k ≠ 0: over what the point before left. -/
theorem accAt1_add (c : Dev nD) (t : Fin cfg1.N) (h0 : ¬t.val % 14 = 0) :
    accAt1 V c t.val t.isLt
      = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The core's scoped buffers that are neither this call's staging buffers nor its accumulator (the other call's staging
    buffers), each whole at some contents, beside `P` in the accumulator's place. -/
def others1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P)

/-- The class's invariant with the accumulator as a memref owned at some contents. -/
theorem PhiA1_eq (c : Dev nD) :
    (Pipeline.ΦA spec1 c : sProp 𝕄)
      = iprop(others1 c (iprop(∃ d, owns (c : Thread nD τ) scM1 fullShare d)) ∗ (∃ r, prngReg c r)) := by
  unfold Pipeline.ΦA others1; rw [scopedRest1_eq]; simp only [scM1, owns_whole]; try rfl

/-- The invariant before the point numbered `n`: before the first point every scoped buffer at anything; afterwards the
    accumulator at what the point before left. -/
def PhiS1 (c : Dev nD) : (n : ℕ) → n ≤ cfg1.N → sProp 𝕄
  | 0, _ => Pipeline.ΦA spec1 c
  | n + 1, hn => iprop(others1 c (owns (c : Thread nD τ) scM1 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 c (owns (c : Thread nD τ) scM1 fullShare (accAt1 V c n hn)) ∗ (∃ r, prngReg c r)) := rfl

theorem PhiS1_pos (c : Dev nD) (n : ℕ) (h : n ≤ cfg1.N) (hz : n ≠ 0) :
    PhiS1 V c n h = iprop(others1 c (owns (c : Thread nD τ) scM1 fullShare (accAt1 V c (n - 1) (by omega))) ∗ (∃ r, prngReg c r)) := by
  cases n with
  | zero => exact absurd rfl hz
  | succ n => rfl

/-! ## The proof data -/

/-- The call's proof data on core `c`: the arrays as the call finds them; each input block left in place; the output
    block, where the body stores it (k = 13), at the accumulator's contents there (elsewhere the window is idle and this
    component is consulted by nothing); the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.Kernel.Hand

end
-- ==== Proof.K.GateUpBody.lean ====
/-
  The gate/up projection call: what one grid point's body does, as the pipeline's body obligation.

  A point is handed four staging buffers. The three inputs' hold the point's activation block and its two
  weight blocks: the activations are brought in at every point, the weights only when the slow coordinate
  advances (every sixteenth point), but a buffer the body never writes still holds the block brought in
  earlier, and that block is this point's because the weight index did not move. The body reads the three
  whole, reads the output buffer (and drops what it read), and stores once, over the whole output buffer,
  silu(x·Wgᵀ)·(x·Wuᵀ) rounded to bf16. One whole store covers the buffer, so what the buffer then reads does
  not depend on what it held before.
-/
import proofs.«175266_j37907381355066_1_alg».proof.Proof.Gen.Kernel.Launch
import proofs.«175266_j37907381355066_1_alg».proof.Proof.Gen.Kernel.Skeleton
import proofs.«175266_j37907381355066_1_alg».proof.Proof.Gen.Kernel.Points
import proofs.«175266_j37907381355066_1_alg».proof.Proof.K.GateUpData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the three input buffers hold when the body is called -/

/-- The activations' buffer holds the point's activation block. The window is an input, is never idle and is
    not cut, and the body leaves it as it found it; so whether or not a transfer landed at this point, the
    buffer reads the block of the array at the point's index. -/
theorem before0_0 (c : Dev nD) (t : Fin cfg0.N) (d) : (dat0 V c).before 0 t d = iblk0 V c 0 t := by
  have keep : ∀ s, (cfg0.win 0).cut (cfg0.grid.coords s) ((dat0 V c).after 0 s) = (dat0 V c).blockOf 0 s := fun s => by
    rw [after0_0]; unfold Dat.blockOf iblk0; rw [A_eq0]; try rfl
  rw [(dat0 V c).before_in_eq_fetched 0 rfl (fun _ => rfl) (fun _ _ _ => rfl) keep t d]
  unfold Dat.fetched Dat.blockOf iblk0; rw [A_eq0]; try rfl

/-- The gate weights' buffer holds the point's gate-weight block: brought in when the slow coordinate last
    advanced, untouched since, and the block index has not moved since. -/
theorem before0_1 (c : Dev nD) (t : Fin cfg0.N) (d) : (dat0 V c).before 1 t d = iblk0 V c 1 t := by
  have keep : ∀ s, (cfg0.win 1).cut (cfg0.grid.coords s) ((dat0 V c).after 1 s) = (dat0 V c).blockOf 1 s := fun s => by
    rw [after0_1]; unfold Dat.blockOf iblk0; rw [A_eq0]; try rfl
  rw [(dat0 V c).before_in_eq_fetched 1 rfl (fun _ => rfl) (fun _ _ _ => rfl) keep t d]
  unfold Dat.fetched Dat.blockOf iblk0; rw [A_eq0]; try rfl

/-- The up weights' buffer, likewise, holds the point's up-weight block. -/
theorem before0_2 (c : Dev nD) (t : Fin cfg0.N) (d) : (dat0 V c).before 2 t d = iblk0 V c 2 t := by
  have keep : ∀ s, (cfg0.win 2).cut (cfg0.grid.coords s) ((dat0 V c).after 2 s) = (dat0 V c).blockOf 2 s := fun s => by
    rw [after0_2]; unfold Dat.blockOf iblk0; rw [A_eq0]; try rfl
  rw [(dat0 V c).before_in_eq_fetched 2 rfl (fun _ => rfl) (fun _ _ _ => rfl) keep t d]
  unfold Dat.fetched Dat.blockOf iblk0; rw [A_eq0]; try rfl

/-! ## The one store fills the output buffer -/

/-- The store's rectangle is the whole 256 × 1024 block: every index of the block lies in it. -/
theorem whole_store_covers (p : Vec F S256x1024 .bf16) (y : S256x1024.Idx) :
    ∃ pc ∈ ([⟨rO0, p⟩] : List (View.Piece (Elt F) S256x1024 .bf16)), y ∈ pc.1.set :=
  View.cover_of_tiled [⟨rO0, p⟩] S256x1024.size (by rfl) y

/-! ## The body on any four whole buffers -/

set_option maxHeartbeats 4000000 in
/-- The body, run on whole buffers of which the three inputs read `x`, `g`, `u` and the output reads anything,
    leaves the inputs reading what they read and the output reading `out0_3 x g u`: three whole loads, a fourth
    whose value is dropped, and one whole store whose payload is a function of the three loaded values. The
    loads read `x`, `g`, `u` at the whole rectangle; the store overwrites every element, so the buffer's new
    reading is the store's payload laid over the block, whatever was there. -/
theorem gateup_triple (c : Dev nD) (E : Set ℕ) (i : grid0.Coords)
    (aX : Memref sig .tc .vmem S256x4096 .bf16) (hX : aX.IsWhole)
    (aG : Memref sig .tc .vmem S1024x4096 .bf16) (hG : aG.IsWhole)
    (aU : Memref sig .tc .vmem S1024x4096 .bf16) (hU : aU.IsWhole)
    (aO : Memref sig .tc .vmem S256x1024 .bf16) (hO : aO.IsWhole)
    (x : Vec F S256x4096 .bf16) (g : Vec F S1024x4096 .bf16) (u : Vec F S1024x4096 .bf16) (K : PUnit → sProp 𝕄) :
    iprop(owns (c : Thread nD τ) aX fullShare x ∗ owns (c : Thread nD τ) aG fullShare g ∗ owns (c : Thread nD τ) aU fullShare u
        ∗ (∃ d, owns (c : Thread nD τ) aO fullShare d)
        ∗ (iprop(owns (c : Thread nD τ) aX fullShare x ∗ owns (c : Thread nD τ) aG fullShare g ∗ owns (c : Thread nD τ) aU fullShare u
              ∗ owns (c : Thread nD τ) aO fullShare (out0_3 x g u)) -∗ K ⟨⟩))
      ⊢ wp frame (wpE (defs₀ (F := F)) Variants.none c none) E (cc0__gateup_kernel i aX hX aG hG aU hU aO hO) K := by
  simp only [cc0__gateup_kernel_eq_skeleton]; unfold cc0__gateup_kernel_skel
  unfold owns
  iintro ⟨⟨%fx, %hx, Hx⟩, ⟨%fg, %hg, Hg⟩, ⟨%fu, %hu, Hu⟩, ⟨%d, %fo, -, Ho⟩, Hk⟩
  subst hx; subst hg; subst hu
  sl_exec
  sl_step
  iapply Hk
  isplitl [Hx]
  · iexists fx; isplitr; · ipureintro; rfl
    iexact Hx
  isplitl [Hg]
  · iexists fg; isplitr; · ipureintro; rfl
    iexact Hg
  isplitl [Hu]
  · iexists fu; isplitr; · ipureintro; rfl
    iexact Hu
  iexists _; isplitr
  swap; · iexact Ho
  ipureintro
  exact View.read_writes_eq_canon _ _ _ (whole_store_covers _)

/-! ## The body at a grid point -/

/-- What the pipeline hands the body at point `t`, window by window. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it takes back. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the three input buffers read the point's blocks, so the body's triple applies with `x`, `g`, `u`
    those blocks; the invariant and what the core owes are the same before and after a point and pass by the body
    unread. -/
theorem gateup_at_point (c : Dev nD) (t : Fin cfg0.N) :
    handed0 V c t ⊢ wp frame (wpE (defs₀ (F := F)) Variants.none c none) Set.univ (bodyAt0 t) (fun _ => returned0 V c t) := by
  unfold handed0 returned0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Hw, ⟨%d0, Hx⟩, ⟨%d1, Hg⟩, ⟨%d2, Hu⟩, ⟨%d3, Ho⟩⟩
  iapply (gateup_triple c Set.univ _ _ _ _ _ _ _ _ _ (iblk0 V c 0 t) (iblk0 V c 1 t) (iblk0 V c 2 t) _)
  isplitl [Hx]; · iexact Hx
  isplitl [Hg]; · iexact Hg
  isplitl [Hu]; · iexact Hu
  isplitl [Ho]; · iexists _; iexact Ho
  iintro ⟨Hx, Hg, Hu, Ho⟩
  isplitl [HΦ]; · iexact HΦ
  isplitl [Hw]; · iexact Hw
  isplitl [Hx]; · iexact Hx
  isplitl [Hg]; · iexact Hg
  isplitl [Hu]; · iexact Hu
  iexact Ho

/-- The call's body obligation: at every point, the four windows taken one by one. -/
theorem body_obligation0 (c : Dev nD) : BodyObligation (dat0 (F := F) V c) (defs₀ (F := F)) Variants.none () Set.univ := fun t => by
  rw [bigSep_W0, bigSep_W0]
  exact gateup_at_point V c t

end Cert.Kernel.Hand

end
-- ==== Proof.K.DownBody.lean ====
/-
  The down projection call's body obligation, and the two ends of its invariant.

  At each of the 112 points the pipeline hands the body the two input blocks, the output block's buffer and the
  accumulator. The body clears the accumulator where k = 0, adds the product of the two input blocks to it at every
  point, and where k = 13 copies it into the output block. The body is run whole in each of the three cases this
  leaves, on buffers owned at named contents; the obligation at a point picks the case from the point's number and
  threads the rest of the invariant (the other call's staging buffers, the generator register) through.
-/
import proofs.«175266_j37907381355066_1_alg».proof.Proof.Gen.Kernel.Launch
import proofs.«175266_j37907381355066_1_alg».proof.Proof.Gen.Kernel.Skeleton
import proofs.«175266_j37907381355066_1_alg».proof.Proof.Gen.Kernel.Points
import proofs.«175266_j37907381355066_1_alg».proof.Proof.K.DownData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Loads and stores of all of a buffer -/

section whole
variable {S : Shape} {e : EltTy}

/-- A load through the rectangle that is all of the shape reads the contents as they are. -/
theorem ld_all (off : Fin S.rank → ℕ) (hoff : ∀ a, off a = 0) (inb : ∀ a, off a + S.size a ≤ S.size a)
    (X : S.Idx → Elt F e) : View.ld X (Rect.unit off S.size inb) = X := by
  obtain rfl : off = fun _ => 0 := funext hoff
  funext x
  exact congrArg X (Rect.emb_whole_apply S x)

/-- Every index lies in that rectangle. -/
theorem mem_all (off : Fin S.rank → ℕ) (hoff : ∀ a, off a = 0) (inb : ∀ a, off a + S.size a ≤ S.size a)
    (y : S.Idx) : y ∈ (Rect.unit off S.size inb).set := by
  obtain rfl : off = fun _ => 0 := funext hoff
  have h : (Rect.whole S).set = Finset.univ := Rect.set_whole S
  exact h ▸ Finset.mem_univ y

/-- A store through it, made last, decides the contents: they are its payload, whatever was stored earlier. -/
theorem canon_all (off : Fin S.rank → ℕ) (hoff : ∀ a, off a = 0) (inb : ∀ a, off a + S.size a ≤ S.size a)
    (w : S.Idx → Elt F e) (L : List (View.Piece (Elt F) S e)) :
    View.canon ((⟨Rect.unit off S.size inb, w⟩ : View.Piece (Elt F) S e) :: L) = w := by
  obtain rfl : off = fun _ => 0 := funext hoff
  funext y
  have h := View.canon_cons_emb (Val := Elt F) (Rect.whole S) w L y
  rwa [Rect.emb_whole_apply] at h

/-- So the buffer, read back after such a store, holds the payload, -/
theorem read_writes_all {κ : Kind} {sp : Space} (v : View sig κ sp S e) (f : v.ty.Contents (Elt F))
    (off : Fin S.rank → ℕ) (hoff : ∀ a, off a = 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ fun y => ⟨_, List.mem_cons_self, mem_all off hoff inb y⟩]
  exact canon_all off hoff inb w L

/-- and so does a load of all of it. -/
theorem readCov_all {κ : Kind} {sp : Space} (v : View sig κ sp S e)
    (off : Fin S.rank → ℕ) (hoff : ∀ a, off a = 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld v _ _ fun y => ⟨_, List.mem_cons_self, mem_all off hoff inb y⟩, canon_all off hoff inb w L]
  exact ld_all off hoff inb w

end whole

/-- The body's accesses all start at the origin. -/
theorem origin2 : ∀ a : Fin 2, (![0, 0] : Fin 2 → ℕ) a = 0 := by
  intro a; fin_cases a <;> rfl

/-! ## The body, run whole, case by case

The body's two conditions leave three cases over the grid: k = 0, where the accumulator is first cleared; 0 < k < 13;
and k = 13, where the accumulator is copied into the output block at the end. In each the four memrefs are whole
buffers, owned at contents `x0`, `x1` (the input blocks), `xo` (the output block) and `xs` (the accumulator), and
the body runs to a continuation that gets the input blocks back as they were, the accumulator at the product of the
input blocks added to zeros (k = 0) or to `xs` (otherwise), and the output block as it was (k ≠ 13) or at the
accumulator's new contents (k = 13). -/

set_option maxHeartbeats 1000000 in
/-- k = 0: the accumulator is cleared, then the product is added to it; what it held before does not matter. -/
theorem run1_A (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S512x4096 .f32) (harg4 : arg4.IsWhole) (arg5 : Memref sig .tc .vmem S512x4096 .f32) (harg5 : arg5.IsWhole) (hc0 : cond1_0 i) (hc1 : ¬cond1_1 i)
    (x0 : Vec F S512x1024 .bf16) (x1 : Vec F S4096x1024 .bf16) (xo : Vec F S512x4096 .f32) (xs : Vec F S512x4096 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo ∗ owns (c : Thread nD τ) arg5 fullShare (k1_pay2 x0 x1 (k1_pay1 (F := F)))) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f0, %hf0, H0⟩, ⟨%f1, %hf1, H1⟩, ⟨%fo, %hfo, HO⟩, ⟨%fs, %hfs, HS⟩, Hk⟩
  sl_exec (disch := first | exact hc0 | exact hc1)
  sl_step
  unfold run1_A.sl.v8 run1_A.sl.HS_1
  iapply Hk
  isplitl [H0]
  · iexists _; isplitr; · ipureintro; exact hf0
    iexact H0
  isplitl [H1]
  · iexists _; isplitr; · ipureintro; exact hf1
    iexact H1
  isplitl [HO]
  · iexists _; isplitr; · ipureintro; exact hfo
    iexact HO
  iexists _; isplitr
  swap; · iexact HS
  ipureintro
  rw [read_writes_all _ _ _ origin2, readCov_all _ _ origin2, View.readAt_eq_ld, View.readAt_eq_ld, hf0, hf1,
    ld_all _ origin2, ld_all _ origin2]

set_option maxHeartbeats 1000000 in
/-- 0 < k < 13: the product is added to what the accumulator held. -/
theorem run1_B (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S512x4096 .f32) (harg4 : arg4.IsWhole) (arg5 : Memref sig .tc .vmem S512x4096 .f32) (harg5 : arg5.IsWhole) (hc0 : ¬cond1_0 i) (hc1 : ¬cond1_1 i)
    (x0 : Vec F S512x1024 .bf16) (x1 : Vec F S4096x1024 .bf16) (xo : Vec F S512x4096 .f32) (xs : Vec F S512x4096 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo ∗ owns (c : Thread nD τ) arg5 fullShare (k1_pay2 x0 x1 xs)) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f0, %hf0, H0⟩, ⟨%f1, %hf1, H1⟩, ⟨%fo, %hfo, HO⟩, ⟨%fs, %hfs, HS⟩, Hk⟩
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr; · ipureintro; exact hfo
    iexact HO
  iexists _; isplitr
  swap; · iexact HS
  ipureintro
  rw [read_writes_all _ _ _ origin2, View.readAt_eq_ld, View.readAt_eq_ld, View.readAt_eq_ld, hf0, hf1, hfs,
    ld_all _ origin2, ld_all _ origin2, ld_all _ origin2]

set_option maxHeartbeats 1000000 in
/-- k = 13: the product is added to what the accumulator held, and the sum is copied into the output block, whatever
    that held. -/
theorem run1_C (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S512x4096 .f32) (harg4 : arg4.IsWhole) (arg5 : Memref sig .tc .vmem S512x4096 .f32) (harg5 : arg5.IsWhole) (hc0 : ¬cond1_0 i) (hc1 : cond1_1 i)
    (x0 : Vec F S512x1024 .bf16) (x1 : Vec F S4096x1024 .bf16) (xo : Vec F S512x4096 .f32) (xs : Vec F S512x4096 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f0, %hf0, H0⟩, ⟨%f1, %hf1, H1⟩, ⟨%fo, %hfo, HO⟩, ⟨%fs, %hfs, HS⟩, Hk⟩
  sl_exec (disch := first | exact hc0 | exact hc1)
  sl_step
  unfold run1_C.sl.v16 run1_C.sl.HS_1
  iapply Hk
  isplitl [H0]
  · iexists _; isplitr; · ipureintro; exact hf0
    iexact H0
  isplitl [H1]
  · iexists _; isplitr; · ipureintro; exact hf1
    iexact H1
  isplitl [HO]
  · iexists _; isplitr
    swap; · iexact HO
    ipureintro
    rw [read_writes_all _ _ _ origin2, readCov_all _ _ origin2, View.readAt_eq_ld, View.readAt_eq_ld, View.readAt_eq_ld,
      hf0, hf1, hfs, ld_all _ origin2, ld_all _ origin2, ld_all _ origin2]
  iexists _; isplitr
  swap; · iexact HS
  ipureintro
  rw [read_writes_all _ _ _ origin2, View.readAt_eq_ld, View.readAt_eq_ld, View.readAt_eq_ld, hf0, hf1, hfs,
    ld_all _ origin2, ld_all _ origin2, ld_all _ origin2]

/-! ## The input windows at a point -/

/-- Both input windows are fetched at every point, so each one's current buffer holds its block there. -/
theorem before1_0 (c : Dev nD) (t : Fin cfg1.N) (d) : (dat1 V c).before 0 t d = iblk1 V c 0 t := by
  rw [(dat1 V c).before_fetched 0 t (fetch1_0 t) d]
  unfold Dat.fetched Dat.blockOf iblk1
  rw [A_eq1]
  try rfl
theorem before1_1 (c : Dev nD) (t : Fin cfg1.N) (d) : (dat1 V c).before 1 t d = iblk1 V c 1 t := by
  rw [(dat1 V c).before_fetched 1 t (fetch1_1 t) d]
  unfold Dat.fetched Dat.blockOf iblk1
  rw [A_eq1]
  try rfl

/-! ## The body obligation, at a generic point -/

/-- What the body is handed at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The input buffers hold their blocks; k decides which of the three runs applies. The
    invariant hands over the accumulator — at anything before the first point, afterwards at what the point before
    left — and takes it back at this point's contents: the product added to zeros where k = 0, to what the point
    before left elsewhere. The output buffer is handed back untouched where k ≠ 13 (the window is idle there and not
    written back) and at the accumulator's contents where k = 13. The other call's staging buffers, the generator
    register and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h1 : t.val % 14 = 13
  · -- k = 13
    have h0 : ¬t.val % 14 = 0 := by omega
    have hz : t.val ≠ 0 := by omega
    rw [show (dat1 V c).leavesExact 2 t = owns (c : Thread nD τ) (st1_2 t) fullShare ((dat1 V c).after 2 t) from by
      unfold Dat.leavesExact; rw [liveAt1_2 t ((hcond1_1 t).mpr h1)], after1_2]
    rw [accAt1_add V c t h0, PhiS1_castSucc V c t, PhiS1_pos V c _ _ hz]
    unfold others1
    iintro ⟨⟨⟨G0, G1, G2, G3, G4, G5, G6, G7, HS⟩, Hg⟩, Ho, ⟨%d0, H0⟩, ⟨%d1, H1⟩, ⟨%d2, H2⟩⟩
    iapply (run1_C c (grid1.coords t) _ _ _ _ _ _ _ _ (fun h => h0 ((hcond1_0 t).mp h)) ((hcond1_1 t).mpr h1)
      (iblk1 V c 0 t) (iblk1 V c 1 t) _ _ Set.univ _)
    isplitl [H0]; · iexact H0
    isplitl [H1]; · iexact H1
    isplitl [H2]; · iexact H2
    isplitl [HS]; · iexact HS
    iintro ⟨H0, H1, H2, HS⟩
    isplitl [G0 G1 G2 G3 G4 G5 G6 G7 HS Hg]
    · isplitr [Hg]
      · isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        iexact HS
      iexact Hg
    isplitl [Ho]; · iexact Ho
    isplitl [H0]; · iexact H0
    isplitl [H1]; · iexact H1
    iexact H2
  · have hn1 : ¬cond1_1 (grid1.coords t) := fun h => h1 ((hcond1_1 t).mp h)
    rw [Dat.leavesExact_idle (dat1 V c) 2 t (idleAt1_2 t hn1) (noFlush1_2 t hn1)]
    by_cases h0 : t.val % 14 = 0
    · -- k = 0
      rw [accAt1_reset V c t h0]
      by_cases hz : t.val = 0
      · -- the first point: the accumulator at anything
        rw [PhiS1_castSucc V c t, PhiS1_zero V c _ _ hz, PhiA1_eq]
        unfold others1
        iintro ⟨⟨⟨G0, G1, G2, G3, G4, G5, G6, G7, ⟨%ds, HS⟩⟩, Hg⟩, Ho, ⟨%d0, H0⟩, ⟨%d1, H1⟩, ⟨%d2, H2⟩⟩
        iapply (run1_A c (grid1.coords t) _ _ _ _ _ _ _ _ ((hcond1_0 t).mpr h0) hn1
          (iblk1 V c 0 t) (iblk1 V c 1 t) _ _ Set.univ _)
        isplitl [H0]; · iexact H0
        isplitl [H1]; · iexact H1
        isplitl [H2]; · iexact H2
        isplitl [HS]; · iexact HS
        iintro ⟨H0, H1, H2, HS⟩
        isplitl [G0 G1 G2 G3 G4 G5 G6 G7 HS Hg]
        · isplitr [Hg]
          · isplitl [G0]; · iexact G0
            isplitl [G1]; · iexact G1
            isplitl [G2]; · iexact G2
            isplitl [G3]; · iexact G3
            isplitl [G4]; · iexact G4
            isplitl [G5]; · iexact G5
            isplitl [G6]; · iexact G6
            isplitl [G7]; · iexact G7
            iexact HS
          iexact Hg
        isplitl [Ho]; · iexact Ho
        isplitl [H0]; · iexact H0
        isplitl [H1]; · iexact H1
        iexists _; iexact H2
      · rw [PhiS1_castSucc V c t, PhiS1_pos V c _ _ hz]
        unfold others1
        iintro ⟨⟨⟨G0, G1, G2, G3, G4, G5, G6, G7, HS⟩, Hg⟩, Ho, ⟨%d0, H0⟩, ⟨%d1, H1⟩, ⟨%d2, H2⟩⟩
        iapply (run1_A c (grid1.coords t) _ _ _ _ _ _ _ _ ((hcond1_0 t).mpr h0) hn1
          (iblk1 V c 0 t) (iblk1 V c 1 t) _ _ Set.univ _)
        isplitl [H0]; · iexact H0
        isplitl [H1]; · iexact H1
        isplitl [H2]; · iexact H2
        isplitl [HS]; · iexact HS
        iintro ⟨H0, H1, H2, HS⟩
        isplitl [G0 G1 G2 G3 G4 G5 G6 G7 HS Hg]
        · isplitr [Hg]
          · isplitl [G0]; · iexact G0
            isplitl [G1]; · iexact G1
            isplitl [G2]; · iexact G2
            isplitl [G3]; · iexact G3
            isplitl [G4]; · iexact G4
            isplitl [G5]; · iexact G5
            isplitl [G6]; · iexact G6
            isplitl [G7]; · iexact G7
            iexact HS
          iexact Hg
        isplitl [Ho]; · iexact Ho
        isplitl [H0]; · iexact H0
        isplitl [H1]; · iexact H1
        iexists _; iexact H2
    · -- 0 < k < 13
      have hz : t.val ≠ 0 := fun h => h0 (by rw [h])
      rw [accAt1_add V c t h0, PhiS1_castSucc V c t, PhiS1_pos V c _ _ hz]
      unfold others1
      iintro ⟨⟨⟨G0, G1, G2, G3, G4, G5, G6, G7, HS⟩, Hg⟩, Ho, ⟨%d0, H0⟩, ⟨%d1, H1⟩, ⟨%d2, H2⟩⟩
      iapply (run1_B c (grid1.coords t) _ _ _ _ _ _ _ _ (fun h => h0 ((hcond1_0 t).mp h)) hn1
        (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [G0 G1 G2 G3 G4 G5 G6 G7 HS Hg]
      · isplitr [Hg]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          iexact HS
        iexact Hg
      isplitl [Ho]; · iexact Ho
      isplitl [H0]; · iexact H0
      isplitl [H1]; · iexact H1
      iexists _; iexact H2

/-- The body obligation of the down call, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- Before the first point the invariant is what the launch hands the call. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point it gives that back: what the accumulator holds is forgotten. -/
theorem hout1 (c : Dev nD) : (dat1 V c).Φ (Fin.last cfg1.N) ⊢ (Pipeline.ΦA spec1 c : sProp 𝕄) := by
  have hN : (Fin.last cfg1.N).val ≠ 0 := by
    rw [Fin.val_last]; have : cfg1.N = 112 := N_1; omega
  rw [show (dat1 V c).Φ (Fin.last cfg1.N) = PhiS1 V c (Fin.last cfg1.N).val (Nat.le_of_lt_succ (Fin.last cfg1.N).isLt) from rfl,
    PhiS1_pos V c _ _ hN, PhiA1_eq]
  unfold others1
  iintro ⟨⟨G0, G1, G2, G3, G4, G5, G6, G7, HS⟩, Hg⟩
  isplitr [Hg]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexists _; iexact HS
  iexact Hg

end Cert.Kernel.Hand

end
-- ==== Proof.K.Run.lean ====
/-
  The whole program as four stretches: the host operations that flatten and narrow the arguments, the gate/up call, the
  down call, the host reshape of the result — and what every unscoped buffer holds at each boundary between them.

  W0 is the launch memory; W1 what the first host stretch leaves; W2 what the gate/up call's write-backs leave (its output
  array at what the pipeline folds from the per-point blocks, everything else untouched); W3 the same for the down call,
  entered from W2; W4 what the final reshape leaves. Every weakly fair execution terminates and the final memory holds W4
  at every unscoped buffer. No stretch writes an argument, so each argument is read back through the four steps to the
  launch memory.
-/
import proofs.«175266_j37907381355066_1_alg».proof.Proof.Gen.Kernel.Launch
import proofs.«175266_j37907381355066_1_alg».proof.Proof.Gen.Kernel.Skeleton
import proofs.«175266_j37907381355066_1_alg».proof.Proof.Gen.Kernel.Points
import proofs.«175266_j37907381355066_1_alg».proof.Proof.K.GateUpData
import proofs.«175266_j37907381355066_1_alg».proof.Proof.K.DownData
import proofs.«175266_j37907381355066_1_alg».proof.Proof.K.GateUpBody
import proofs.«175266_j37907381355066_1_alg».proof.Proof.K.DownBody
import proofs.«175266_j37907381355066_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the gate/up call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the down call, entered from W2. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the final reshape. -/
abbrev W4 : Dev nD → Valuation τ sig (Elt F) := fun c => StableHlo.after hostOps2 (W3 m ρ c)

/-! ## The proof data family, the thread state, the segments -/

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c

abbrev 𝒱₀ : Variants := Variants.none
abbrev L : GSem nD τ sig → Finset Unit := fun _ => ∅
abbrev lv : GSem nD τ sig → Unit → ℕ := fun _ _ => 0

/-- What rides beside the buffers through every segment: the generator register at some state, and the core owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The gate/up call over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generator register and the scoped buffers no window of the down call stages make the class's invariant, -/
theorem phiA_of1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp

/-- and the class's invariant gives them back. -/
theorem phiA_to1 (c : Dev nD) :
    (Pipeline.ΦA spec1 c : sProp 𝕄)
      ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
/-- The down call over the thread state: entered from every unscoped buffer at W2, left at W3. Its invariant starts as
    the class's and ends as the class's (the accumulator's named contents forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_of1 c _).trans (show (Pipeline.ΦA spec1 c : sProp 𝕄) ⊢ (pdats m ρ 1 c).Φ 0 from hin1 (V2 m ρ) c)
  hout c := by
    rw [Pipeline.ownSems0_none]
    exact (show (pdats m ρ 1 c).Φ (Fin.last _) ⊢ (Pipeline.ΦA spec1 c : sProp 𝕄) from hout1 (V2 m ρ) c).trans (phiA_to1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution terminates, nothing faulting, and the final
    memory holds W4 at every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W1_of (c : Dev nD) (r : Ref sig .tc) (h : r ∉ hostOps0_W) : W1 m ρ c r = W0 m ρ c r :=
  StableHlo.after_of_writes_sub hostOps0 _ hostOps0_writes h
theorem W4_of (c : Dev nD) (r : Ref sig .tc) (h : r ∉ hostOps2_W) : W4 m ρ c r = W3 m ρ c r :=
  StableHlo.after_of_writes_sub hostOps2 _ hostOps2_writes h

/-- A buffer that no host stretch writes and that is no array of either call's windows holds its launch contents at the end. -/
theorem W4_kept (c : Dev nD) (r : Ref sig .tc) (h2 : r ∉ hostOps2_W) (h1 : ∀ w, Pipeline.arrRef spec1 w ≠ r)
    (h0 : ∀ w, Pipeline.arrRef spec0 w ≠ r) (hh : r ∉ hostOps0_W) : W4 m ρ c r = m ((c : Thread nD τ).loc r) :=
  (W4_of m ρ c r h2).trans <| (W3_of_ne m ρ c r h1).trans <| (W2_of_ne m ρ c r h0).trans <| (W1_of m ρ c r hh).trans rfl

/-- THE FRAME: every weakly fair execution terminates, nothing faulting, the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_kept m ρ c main_arg0 (by decide) (by decide) (by decide) (by decide)),
     (h c _ (mem_uc main_arg1 (by decide))).trans (W4_kept m ρ c main_arg1 (by decide) (by decide) (by decide) (by decide)),
     (h c _ (mem_uc main_arg2 (by decide))).trans (W4_kept m ρ c main_arg2 (by decide) (by decide) (by decide) (by decide)),
     (h c _ (mem_uc main_arg3 (by decide))).trans (W4_kept m ρ c main_arg3 (by decide) (by decide) (by decide) (by decide))⟩)
    (run_all m ρ)

end Cert.Kernel.Hand

end
-- ==== Proof.KI.GateUpData.lean ====
/-
  The gate/up projection call, point by point: what each grid point is handed and what it leaves.

  The grid is 14 × 16: the slow coordinate n picks a stretch of 1024 rows of the two weight matrices, the fast coordinate
  m a stretch of 256 rows of the activations. A point loads its three input blocks whole, forms the two products
  x·Wgᵀ and x·Wuᵀ, multiplies silu of the first by the second and stores the 256 × 1024 result whole into its output
  block, which the pipeline writes back at block (m, n). Nothing is kept between points.
-/
import proofs.«175266_j37907381355066_1_alg».proof.Proof.Gen.KernelIdeal.Launch
import proofs.«175266_j37907381355066_1_alg».proof.Proof.Gen.KernelIdeal.Skeleton
import proofs.«175266_j37907381355066_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole activation block, the whole weight block, the whole output block. -/
abbrev rX0 : Rect S256x4096 := Rect.unit (s := S256x4096) ![0, 0] S256x4096.size inb_S256x4096_S256x4096_0_0
abbrev rW0 : Rect S1024x4096 := Rect.unit (s := S1024x4096) ![0, 0] S1024x4096.size inb_S1024x4096_S1024x4096_0_0
abbrev rO0 : Rect S256x1024 := Rect.unit (s := S256x1024) ![0, 0] S256x1024.size inb_S256x1024_S256x1024_0_0

/-- What a point leaves in its output block, from its three input blocks: the one whole store. -/
def out0_3 (x0 : Vec F S256x4096 .bf16) (x1 : Vec F S1024x4096 .bf16) (x2 : Vec F S1024x4096 .bf16) : Vec F S256x1024 .bf16 :=
  View.canon [⟨rO0, k0_pay1 (View.ld x0 rX0) (View.ld x1 rW0) (View.ld x2 rW0)⟩]

/-- The call's proof data on core `c`: the arrays as the call finds them; each input block left in place, the output
    block at the body's store; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.KernelIdeal.Hand

end
-- ==== Proof.KI.DownData.lean ====
/-
  The down projection call, point by point: what each grid point is handed, what it leaves, and what the accumulator
  holds between points.

  The grid is 8 × 14: the slow coordinate picks a stretch of 512 rows, the fast coordinate k a stretch of 1024 columns of
  the contracted axis. A point with k = 0 first clears the accumulator; every point then adds the product of its two
  input blocks to the accumulator; a point with k = 13 copies the accumulator into the output block, which the pipeline
  writes back there and only there. So after the point numbered n the accumulator holds the sum of the products of the
  points n - (n mod 14), …, n, each added to the one before, starting from a block of zeros.
-/
import proofs.«175266_j37907381355066_1_alg».proof.Proof.Gen.KernelIdeal.Launch
import proofs.«175266_j37907381355066_1_alg».proof.Proof.Gen.KernelIdeal.Skeleton
import proofs.«175266_j37907381355066_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, decided over the grid -/

/-- "k = 0", as the body computes it. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 14 = 0 :=
  (by decide +kernel : ∀ t : Fin grid1.N, cond1_0 (grid1.coords t) ↔ t.val % 14 = 0)

/-- "k = 13", as the body computes it. -/
abbrev cond1_1 (i : grid1.Coords) : Prop := k1_cond2 i = 1#1
theorem hcond1_1 : ∀ t : Fin cfg1.N, cond1_1 (grid1.coords t) ↔ t.val % 14 = 13 :=
  (by decide +kernel : ∀ t : Fin grid1.N, cond1_1 (grid1.coords t) ↔ t.val % 14 = 13)

/-- The input windows are never idle; the output window is idle, and not written back, exactly off k = 13. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## Blocks and the accumulator -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator, a whole scoped buffer of the call's own. -/
abbrev scM1 : Memref sig .tc .vmem S512x4096 .f32 := Memref.whole cc1_scratch0

/-- What the accumulator holds after the point numbered `n`: the point's product added to a block of zeros when the
    point's k is 0, and to what the point before left otherwise. -/
def accAt1 (c : Dev nD) : (n : ℕ) → n < cfg1.N → Vec F S512x4096 .f32
  | 0, hn => k1_pay2 (iblk1 V c 0 ⟨0, hn⟩) (iblk1 V c 1 ⟨0, hn⟩) (k1_pay1 (F := F))
  | n + 1, hn =>
    if (n + 1) % 14 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

/-- At a point with k = 0. -/
theorem accAt1_reset (c : Dev nD) (t : Fin cfg1.N) (h0 : t.val % 14 = 0) :
    accAt1 V c t.val t.isLt = k1_pay2 (iblk1 V c 0 t) (iblk1 V c 1 t) (k1_pay1 (F := F)) := by
  obtain ⟨n, hn⟩ := t
  cases n with
  | zero => rfl
  | succ n => exact if_pos h0

/-- At a point with k ≠ 0: over what the point before left. -/
theorem accAt1_add (c : Dev nD) (t : Fin cfg1.N) (h0 : ¬t.val % 14 = 0) :
    accAt1 V c t.val t.isLt
      = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The core's scoped buffers that are neither this call's staging buffers nor its accumulator (the other call's staging
    buffers), each whole at some contents, beside `P` in the accumulator's place. -/
def others1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P)

/-- The class's invariant with the accumulator as a memref owned at some contents. -/
theorem PhiA1_eq (c : Dev nD) :
    (Pipeline.ΦA spec1 c : sProp 𝕄)
      = iprop(others1 c (iprop(∃ d, owns (c : Thread nD τ) scM1 fullShare d)) ∗ (∃ r, prngReg c r)) := by
  unfold Pipeline.ΦA others1; rw [scopedRest1_eq]; simp only [scM1, owns_whole]; try rfl

/-- The invariant before the point numbered `n`: before the first point every scoped buffer at anything; afterwards the
    accumulator at what the point before left. -/
def PhiS1 (c : Dev nD) : (n : ℕ) → n ≤ cfg1.N → sProp 𝕄
  | 0, _ => Pipeline.ΦA spec1 c
  | n + 1, hn => iprop(others1 c (owns (c : Thread nD τ) scM1 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 c (owns (c : Thread nD τ) scM1 fullShare (accAt1 V c n hn)) ∗ (∃ r, prngReg c r)) := rfl

theorem PhiS1_pos (c : Dev nD) (n : ℕ) (h : n ≤ cfg1.N) (hz : n ≠ 0) :
    PhiS1 V c n h = iprop(others1 c (owns (c : Thread nD τ) scM1 fullShare (accAt1 V c (n - 1) (by omega))) ∗ (∃ r, prngReg c r)) := by
  cases n with
  | zero => exact absurd rfl hz
  | succ n => rfl

/-! ## The proof data -/

/-- The call's proof data on core `c`: the arrays as the call finds them; each input block left in place; the output
    block, where the body stores it (k = 13), at the accumulator's contents there (elsewhere the window is idle and this
    component is consulted by nothing); the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.KernelIdeal.Hand

end
-- ==== Proof.KI.GateUpBody.lean ====
/-
  The gate/up projection call: what one grid point's body does, as the pipeline's body obligation.

  A point is handed four staging buffers. The three inputs' hold the point's activation block and its two
  weight blocks: the activations are brought in at every point, the weights only when the slow coordinate
  advances (every sixteenth point), but a buffer the body never writes still holds the block brought in
  earlier, and that block is this point's because the weight index did not move. The body reads the three
  whole, reads the output buffer (and drops what it read), and stores once, over the whole output buffer,
  silu(x·Wgᵀ)·(x·Wuᵀ) rounded to bf16. One whole store covers the buffer, so what the buffer then reads does
  not depend on what it held before.
-/
import proofs.«175266_j37907381355066_1_alg».proof.Proof.Gen.KernelIdeal.Launch
import proofs.«175266_j37907381355066_1_alg».proof.Proof.Gen.KernelIdeal.Skeleton
import proofs.«175266_j37907381355066_1_alg».proof.Proof.Gen.KernelIdeal.Points
import proofs.«175266_j37907381355066_1_alg».proof.Proof.KI.GateUpData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the three input buffers hold when the body is called -/

/-- The activations' buffer holds the point's activation block. The window is an input, is never idle and is
    not cut, and the body leaves it as it found it; so whether or not a transfer landed at this point, the
    buffer reads the block of the array at the point's index. -/
theorem before0_0 (c : Dev nD) (t : Fin cfg0.N) (d) : (dat0 V c).before 0 t d = iblk0 V c 0 t := by
  have keep : ∀ s, (cfg0.win 0).cut (cfg0.grid.coords s) ((dat0 V c).after 0 s) = (dat0 V c).blockOf 0 s := fun s => by
    rw [after0_0]; unfold Dat.blockOf iblk0; rw [A_eq0]; try rfl
  rw [(dat0 V c).before_in_eq_fetched 0 rfl (fun _ => rfl) (fun _ _ _ => rfl) keep t d]
  unfold Dat.fetched Dat.blockOf iblk0; rw [A_eq0]; try rfl

/-- The gate weights' buffer holds the point's gate-weight block: brought in when the slow coordinate last
    advanced, untouched since, and the block index has not moved since. -/
theorem before0_1 (c : Dev nD) (t : Fin cfg0.N) (d) : (dat0 V c).before 1 t d = iblk0 V c 1 t := by
  have keep : ∀ s, (cfg0.win 1).cut (cfg0.grid.coords s) ((dat0 V c).after 1 s) = (dat0 V c).blockOf 1 s := fun s => by
    rw [after0_1]; unfold Dat.blockOf iblk0; rw [A_eq0]; try rfl
  rw [(dat0 V c).before_in_eq_fetched 1 rfl (fun _ => rfl) (fun _ _ _ => rfl) keep t d]
  unfold Dat.fetched Dat.blockOf iblk0; rw [A_eq0]; try rfl

/-- The up weights' buffer, likewise, holds the point's up-weight block. -/
theorem before0_2 (c : Dev nD) (t : Fin cfg0.N) (d) : (dat0 V c).before 2 t d = iblk0 V c 2 t := by
  have keep : ∀ s, (cfg0.win 2).cut (cfg0.grid.coords s) ((dat0 V c).after 2 s) = (dat0 V c).blockOf 2 s := fun s => by
    rw [after0_2]; unfold Dat.blockOf iblk0; rw [A_eq0]; try rfl
  rw [(dat0 V c).before_in_eq_fetched 2 rfl (fun _ => rfl) (fun _ _ _ => rfl) keep t d]
  unfold Dat.fetched Dat.blockOf iblk0; rw [A_eq0]; try rfl

/-! ## The one store fills the output buffer -/

/-- The store's rectangle is the whole 256 × 1024 block: every index of the block lies in it. -/
theorem whole_store_covers (p : Vec F S256x1024 .bf16) (y : S256x1024.Idx) :
    ∃ pc ∈ ([⟨rO0, p⟩] : List (View.Piece (Elt F) S256x1024 .bf16)), y ∈ pc.1.set :=
  View.cover_of_tiled [⟨rO0, p⟩] S256x1024.size (by rfl) y

/-! ## The body on any four whole buffers -/

set_option maxHeartbeats 4000000 in
/-- The body, run on whole buffers of which the three inputs read `x`, `g`, `u` and the output reads anything,
    leaves the inputs reading what they read and the output reading `out0_3 x g u`: three whole loads, a fourth
    whose value is dropped, and one whole store whose payload is a function of the three loaded values. The
    loads read `x`, `g`, `u` at the whole rectangle; the store overwrites every element, so the buffer's new
    reading is the store's payload laid over the block, whatever was there. -/
theorem gateup_triple (c : Dev nD) (E : Set ℕ) (i : grid0.Coords)
    (aX : Memref sig .tc .vmem S256x4096 .bf16) (hX : aX.IsWhole)
    (aG : Memref sig .tc .vmem S1024x4096 .bf16) (hG : aG.IsWhole)
    (aU : Memref sig .tc .vmem S1024x4096 .bf16) (hU : aU.IsWhole)
    (aO : Memref sig .tc .vmem S256x1024 .bf16) (hO : aO.IsWhole)
    (x : Vec F S256x4096 .bf16) (g : Vec F S1024x4096 .bf16) (u : Vec F S1024x4096 .bf16) (K : PUnit → sProp 𝕄) :
    iprop(owns (c : Thread nD τ) aX fullShare x ∗ owns (c : Thread nD τ) aG fullShare g ∗ owns (c : Thread nD τ) aU fullShare u
        ∗ (∃ d, owns (c : Thread nD τ) aO fullShare d)
        ∗ (iprop(owns (c : Thread nD τ) aX fullShare x ∗ owns (c : Thread nD τ) aG fullShare g ∗ owns (c : Thread nD τ) aU fullShare u
              ∗ owns (c : Thread nD τ) aO fullShare (out0_3 x g u)) -∗ K ⟨⟩))
      ⊢ wp frame (wpE (defs₀ (F := F)) Variants.none c none) E (cc0__gateup_kernel i aX hX aG hG aU hU aO hO) K := by
  simp only [cc0__gateup_kernel_eq_skeleton]; unfold cc0__gateup_kernel_skel
  unfold owns
  iintro ⟨⟨%fx, %hx, Hx⟩, ⟨%fg, %hg, Hg⟩, ⟨%fu, %hu, Hu⟩, ⟨%d, %fo, -, Ho⟩, Hk⟩
  subst hx; subst hg; subst hu
  sl_exec
  sl_step
  iapply Hk
  isplitl [Hx]
  · iexists fx; isplitr; · ipureintro; rfl
    iexact Hx
  isplitl [Hg]
  · iexists fg; isplitr; · ipureintro; rfl
    iexact Hg
  isplitl [Hu]
  · iexists fu; isplitr; · ipureintro; rfl
    iexact Hu
  iexists _; isplitr
  swap; · iexact Ho
  ipureintro
  exact View.read_writes_eq_canon _ _ _ (whole_store_covers _)

/-! ## The body at a grid point -/

/-- What the pipeline hands the body at point `t`, window by window. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it takes back. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the three input buffers read the point's blocks, so the body's triple applies with `x`, `g`, `u`
    those blocks; the invariant and what the core owes are the same before and after a point and pass by the body
    unread. -/
theorem gateup_at_point (c : Dev nD) (t : Fin cfg0.N) :
    handed0 V c t ⊢ wp frame (wpE (defs₀ (F := F)) Variants.none c none) Set.univ (bodyAt0 t) (fun _ => returned0 V c t) := by
  unfold handed0 returned0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Hw, ⟨%d0, Hx⟩, ⟨%d1, Hg⟩, ⟨%d2, Hu⟩, ⟨%d3, Ho⟩⟩
  iapply (gateup_triple c Set.univ _ _ _ _ _ _ _ _ _ (iblk0 V c 0 t) (iblk0 V c 1 t) (iblk0 V c 2 t) _)
  isplitl [Hx]; · iexact Hx
  isplitl [Hg]; · iexact Hg
  isplitl [Hu]; · iexact Hu
  isplitl [Ho]; · iexists _; iexact Ho
  iintro ⟨Hx, Hg, Hu, Ho⟩
  isplitl [HΦ]; · iexact HΦ
  isplitl [Hw]; · iexact Hw
  isplitl [Hx]; · iexact Hx
  isplitl [Hg]; · iexact Hg
  isplitl [Hu]; · iexact Hu
  iexact Ho

/-- The call's body obligation: at every point, the four windows taken one by one. -/
theorem body_obligation0 (c : Dev nD) : BodyObligation (dat0 (F := F) V c) (defs₀ (F := F)) Variants.none () Set.univ := fun t => by
  rw [bigSep_W0, bigSep_W0]
  exact gateup_at_point V c t

end Cert.KernelIdeal.Hand

end
-- ==== Proof.KI.DownBody.lean ====
/-
  The down projection call's body obligation, and the two ends of its invariant.

  At each of the 112 points the pipeline hands the body the two input blocks, the output block's buffer and the
  accumulator. The body clears the accumulator where k = 0, adds the product of the two input blocks to it at every
  point, and where k = 13 copies it into the output block. The body is run whole in each of the three cases this
  leaves, on buffers owned at named contents; the obligation at a point picks the case from the point's number and
  threads the rest of the invariant (the other call's staging buffers, the generator register) through.
-/
import proofs.«175266_j37907381355066_1_alg».proof.Proof.Gen.KernelIdeal.Launch
import proofs.«175266_j37907381355066_1_alg».proof.Proof.Gen.KernelIdeal.Skeleton
import proofs.«175266_j37907381355066_1_alg».proof.Proof.Gen.KernelIdeal.Points
import proofs.«175266_j37907381355066_1_alg».proof.Proof.KI.DownData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Loads and stores of all of a buffer -/

section whole
variable {S : Shape} {e : EltTy}

/-- A load through the rectangle that is all of the shape reads the contents as they are. -/
theorem ld_all (off : Fin S.rank → ℕ) (hoff : ∀ a, off a = 0) (inb : ∀ a, off a + S.size a ≤ S.size a)
    (X : S.Idx → Elt F e) : View.ld X (Rect.unit off S.size inb) = X := by
  obtain rfl : off = fun _ => 0 := funext hoff
  funext x
  exact congrArg X (Rect.emb_whole_apply S x)

/-- Every index lies in that rectangle. -/
theorem mem_all (off : Fin S.rank → ℕ) (hoff : ∀ a, off a = 0) (inb : ∀ a, off a + S.size a ≤ S.size a)
    (y : S.Idx) : y ∈ (Rect.unit off S.size inb).set := by
  obtain rfl : off = fun _ => 0 := funext hoff
  have h : (Rect.whole S).set = Finset.univ := Rect.set_whole S
  exact h ▸ Finset.mem_univ y

/-- A store through it, made last, decides the contents: they are its payload, whatever was stored earlier. -/
theorem canon_all (off : Fin S.rank → ℕ) (hoff : ∀ a, off a = 0) (inb : ∀ a, off a + S.size a ≤ S.size a)
    (w : S.Idx → Elt F e) (L : List (View.Piece (Elt F) S e)) :
    View.canon ((⟨Rect.unit off S.size inb, w⟩ : View.Piece (Elt F) S e) :: L) = w := by
  obtain rfl : off = fun _ => 0 := funext hoff
  funext y
  have h := View.canon_cons_emb (Val := Elt F) (Rect.whole S) w L y
  rwa [Rect.emb_whole_apply] at h

/-- So the buffer, read back after such a store, holds the payload, -/
theorem read_writes_all {κ : Kind} {sp : Space} (v : View sig κ sp S e) (f : v.ty.Contents (Elt F))
    (off : Fin S.rank → ℕ) (hoff : ∀ a, off a = 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ fun y => ⟨_, List.mem_cons_self, mem_all off hoff inb y⟩]
  exact canon_all off hoff inb w L

/-- and so does a load of all of it. -/
theorem readCov_all {κ : Kind} {sp : Space} (v : View sig κ sp S e)
    (off : Fin S.rank → ℕ) (hoff : ∀ a, off a = 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld v _ _ fun y => ⟨_, List.mem_cons_self, mem_all off hoff inb y⟩, canon_all off hoff inb w L]
  exact ld_all off hoff inb w

end whole

/-- The body's accesses all start at the origin. -/
theorem origin2 : ∀ a : Fin 2, (![0, 0] : Fin 2 → ℕ) a = 0 := by
  intro a; fin_cases a <;> rfl

/-! ## The body, run whole, case by case

The body's two conditions leave three cases over the grid: k = 0, where the accumulator is first cleared; 0 < k < 13;
and k = 13, where the accumulator is copied into the output block at the end. In each the four memrefs are whole
buffers, owned at contents `x0`, `x1` (the input blocks), `xo` (the output block) and `xs` (the accumulator), and
the body runs to a continuation that gets the input blocks back as they were, the accumulator at the product of the
input blocks added to zeros (k = 0) or to `xs` (otherwise), and the output block as it was (k ≠ 13) or at the
accumulator's new contents (k = 13). -/

set_option maxHeartbeats 1000000 in
/-- k = 0: the accumulator is cleared, then the product is added to it; what it held before does not matter. -/
theorem run1_A (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S512x4096 .f32) (harg4 : arg4.IsWhole) (arg5 : Memref sig .tc .vmem S512x4096 .f32) (harg5 : arg5.IsWhole) (hc0 : cond1_0 i) (hc1 : ¬cond1_1 i)
    (x0 : Vec F S512x1024 .bf16) (x1 : Vec F S4096x1024 .bf16) (xo : Vec F S512x4096 .f32) (xs : Vec F S512x4096 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo ∗ owns (c : Thread nD τ) arg5 fullShare (k1_pay2 x0 x1 (k1_pay1 (F := F)))) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f0, %hf0, H0⟩, ⟨%f1, %hf1, H1⟩, ⟨%fo, %hfo, HO⟩, ⟨%fs, %hfs, HS⟩, Hk⟩
  sl_exec (disch := first | exact hc0 | exact hc1)
  sl_step
  unfold run1_A.sl.v8 run1_A.sl.HS_1
  iapply Hk
  isplitl [H0]
  · iexists _; isplitr; · ipureintro; exact hf0
    iexact H0
  isplitl [H1]
  · iexists _; isplitr; · ipureintro; exact hf1
    iexact H1
  isplitl [HO]
  · iexists _; isplitr; · ipureintro; exact hfo
    iexact HO
  iexists _; isplitr
  swap; · iexact HS
  ipureintro
  rw [read_writes_all _ _ _ origin2, readCov_all _ _ origin2, View.readAt_eq_ld, View.readAt_eq_ld, hf0, hf1,
    ld_all _ origin2, ld_all _ origin2]

set_option maxHeartbeats 1000000 in
/-- 0 < k < 13: the product is added to what the accumulator held. -/
theorem run1_B (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S512x4096 .f32) (harg4 : arg4.IsWhole) (arg5 : Memref sig .tc .vmem S512x4096 .f32) (harg5 : arg5.IsWhole) (hc0 : ¬cond1_0 i) (hc1 : ¬cond1_1 i)
    (x0 : Vec F S512x1024 .bf16) (x1 : Vec F S4096x1024 .bf16) (xo : Vec F S512x4096 .f32) (xs : Vec F S512x4096 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo ∗ owns (c : Thread nD τ) arg5 fullShare (k1_pay2 x0 x1 xs)) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f0, %hf0, H0⟩, ⟨%f1, %hf1, H1⟩, ⟨%fo, %hfo, HO⟩, ⟨%fs, %hfs, HS⟩, Hk⟩
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [HO]
  · iexists _; isplitr; · ipureintro; exact hfo
    iexact HO
  iexists _; isplitr
  swap; · iexact HS
  ipureintro
  rw [read_writes_all _ _ _ origin2, View.readAt_eq_ld, View.readAt_eq_ld, View.readAt_eq_ld, hf0, hf1, hfs,
    ld_all _ origin2, ld_all _ origin2, ld_all _ origin2]

set_option maxHeartbeats 1000000 in
/-- k = 13: the product is added to what the accumulator held, and the sum is copied into the output block, whatever
    that held. -/
theorem run1_C (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S512x4096 .f32) (harg4 : arg4.IsWhole) (arg5 : Memref sig .tc .vmem S512x4096 .f32) (harg5 : arg5.IsWhole) (hc0 : ¬cond1_0 i) (hc1 : cond1_1 i)
    (x0 : Vec F S512x1024 .bf16) (x1 : Vec F S4096x1024 .bf16) (xo : Vec F S512x4096 .f32) (xs : Vec F S512x4096 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__down_kernel i arg2 harg2 arg3 harg3 arg4 harg4 arg5 harg5) K := by
  simp only [cc1__down_kernel_eq_skeleton]; unfold cc1__down_kernel_skel
  unfold owns
  iintro ⟨⟨%f0, %hf0, H0⟩, ⟨%f1, %hf1, H1⟩, ⟨%fo, %hfo, HO⟩, ⟨%fs, %hfs, HS⟩, Hk⟩
  sl_exec (disch := first | exact hc0 | exact hc1)
  sl_step
  unfold run1_C.sl.v16 run1_C.sl.HS_1
  iapply Hk
  isplitl [H0]
  · iexists _; isplitr; · ipureintro; exact hf0
    iexact H0
  isplitl [H1]
  · iexists _; isplitr; · ipureintro; exact hf1
    iexact H1
  isplitl [HO]
  · iexists _; isplitr
    swap; · iexact HO
    ipureintro
    rw [read_writes_all _ _ _ origin2, readCov_all _ _ origin2, View.readAt_eq_ld, View.readAt_eq_ld, View.readAt_eq_ld,
      hf0, hf1, hfs, ld_all _ origin2, ld_all _ origin2, ld_all _ origin2]
  iexists _; isplitr
  swap; · iexact HS
  ipureintro
  rw [read_writes_all _ _ _ origin2, View.readAt_eq_ld, View.readAt_eq_ld, View.readAt_eq_ld, hf0, hf1, hfs,
    ld_all _ origin2, ld_all _ origin2, ld_all _ origin2]

/-! ## The input windows at a point -/

/-- Both input windows are fetched at every point, so each one's current buffer holds its block there. -/
theorem before1_0 (c : Dev nD) (t : Fin cfg1.N) (d) : (dat1 V c).before 0 t d = iblk1 V c 0 t := by
  rw [(dat1 V c).before_fetched 0 t (fetch1_0 t) d]
  unfold Dat.fetched Dat.blockOf iblk1
  rw [A_eq1]
  try rfl
theorem before1_1 (c : Dev nD) (t : Fin cfg1.N) (d) : (dat1 V c).before 1 t d = iblk1 V c 1 t := by
  rw [(dat1 V c).before_fetched 1 t (fetch1_1 t) d]
  unfold Dat.fetched Dat.blockOf iblk1
  rw [A_eq1]
  try rfl

/-! ## The body obligation, at a generic point -/

/-- What the body is handed at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The input buffers hold their blocks; k decides which of the three runs applies. The
    invariant hands over the accumulator — at anything before the first point, afterwards at what the point before
    left — and takes it back at this point's contents: the product added to zeros where k = 0, to what the point
    before left elsewhere. The output buffer is handed back untouched where k ≠ 13 (the window is idle there and not
    written back) and at the accumulator's contents where k = 13. The other call's staging buffers, the generator
    register and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h1 : t.val % 14 = 13
  · -- k = 13
    have h0 : ¬t.val % 14 = 0 := by omega
    have hz : t.val ≠ 0 := by omega
    rw [show (dat1 V c).leavesExact 2 t = owns (c : Thread nD τ) (st1_2 t) fullShare ((dat1 V c).after 2 t) from by
      unfold Dat.leavesExact; rw [liveAt1_2 t ((hcond1_1 t).mpr h1)], after1_2]
    rw [accAt1_add V c t h0, PhiS1_castSucc V c t, PhiS1_pos V c _ _ hz]
    unfold others1
    iintro ⟨⟨⟨G0, G1, G2, G3, G4, G5, G6, G7, HS⟩, Hg⟩, Ho, ⟨%d0, H0⟩, ⟨%d1, H1⟩, ⟨%d2, H2⟩⟩
    iapply (run1_C c (grid1.coords t) _ _ _ _ _ _ _ _ (fun h => h0 ((hcond1_0 t).mp h)) ((hcond1_1 t).mpr h1)
      (iblk1 V c 0 t) (iblk1 V c 1 t) _ _ Set.univ _)
    isplitl [H0]; · iexact H0
    isplitl [H1]; · iexact H1
    isplitl [H2]; · iexact H2
    isplitl [HS]; · iexact HS
    iintro ⟨H0, H1, H2, HS⟩
    isplitl [G0 G1 G2 G3 G4 G5 G6 G7 HS Hg]
    · isplitr [Hg]
      · isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        iexact HS
      iexact Hg
    isplitl [Ho]; · iexact Ho
    isplitl [H0]; · iexact H0
    isplitl [H1]; · iexact H1
    iexact H2
  · have hn1 : ¬cond1_1 (grid1.coords t) := fun h => h1 ((hcond1_1 t).mp h)
    rw [Dat.leavesExact_idle (dat1 V c) 2 t (idleAt1_2 t hn1) (noFlush1_2 t hn1)]
    by_cases h0 : t.val % 14 = 0
    · -- k = 0
      rw [accAt1_reset V c t h0]
      by_cases hz : t.val = 0
      · -- the first point: the accumulator at anything
        rw [PhiS1_castSucc V c t, PhiS1_zero V c _ _ hz, PhiA1_eq]
        unfold others1
        iintro ⟨⟨⟨G0, G1, G2, G3, G4, G5, G6, G7, ⟨%ds, HS⟩⟩, Hg⟩, Ho, ⟨%d0, H0⟩, ⟨%d1, H1⟩, ⟨%d2, H2⟩⟩
        iapply (run1_A c (grid1.coords t) _ _ _ _ _ _ _ _ ((hcond1_0 t).mpr h0) hn1
          (iblk1 V c 0 t) (iblk1 V c 1 t) _ _ Set.univ _)
        isplitl [H0]; · iexact H0
        isplitl [H1]; · iexact H1
        isplitl [H2]; · iexact H2
        isplitl [HS]; · iexact HS
        iintro ⟨H0, H1, H2, HS⟩
        isplitl [G0 G1 G2 G3 G4 G5 G6 G7 HS Hg]
        · isplitr [Hg]
          · isplitl [G0]; · iexact G0
            isplitl [G1]; · iexact G1
            isplitl [G2]; · iexact G2
            isplitl [G3]; · iexact G3
            isplitl [G4]; · iexact G4
            isplitl [G5]; · iexact G5
            isplitl [G6]; · iexact G6
            isplitl [G7]; · iexact G7
            iexact HS
          iexact Hg
        isplitl [Ho]; · iexact Ho
        isplitl [H0]; · iexact H0
        isplitl [H1]; · iexact H1
        iexists _; iexact H2
      · rw [PhiS1_castSucc V c t, PhiS1_pos V c _ _ hz]
        unfold others1
        iintro ⟨⟨⟨G0, G1, G2, G3, G4, G5, G6, G7, HS⟩, Hg⟩, Ho, ⟨%d0, H0⟩, ⟨%d1, H1⟩, ⟨%d2, H2⟩⟩
        iapply (run1_A c (grid1.coords t) _ _ _ _ _ _ _ _ ((hcond1_0 t).mpr h0) hn1
          (iblk1 V c 0 t) (iblk1 V c 1 t) _ _ Set.univ _)
        isplitl [H0]; · iexact H0
        isplitl [H1]; · iexact H1
        isplitl [H2]; · iexact H2
        isplitl [HS]; · iexact HS
        iintro ⟨H0, H1, H2, HS⟩
        isplitl [G0 G1 G2 G3 G4 G5 G6 G7 HS Hg]
        · isplitr [Hg]
          · isplitl [G0]; · iexact G0
            isplitl [G1]; · iexact G1
            isplitl [G2]; · iexact G2
            isplitl [G3]; · iexact G3
            isplitl [G4]; · iexact G4
            isplitl [G5]; · iexact G5
            isplitl [G6]; · iexact G6
            isplitl [G7]; · iexact G7
            iexact HS
          iexact Hg
        isplitl [Ho]; · iexact Ho
        isplitl [H0]; · iexact H0
        isplitl [H1]; · iexact H1
        iexists _; iexact H2
    · -- 0 < k < 13
      have hz : t.val ≠ 0 := fun h => h0 (by rw [h])
      rw [accAt1_add V c t h0, PhiS1_castSucc V c t, PhiS1_pos V c _ _ hz]
      unfold others1
      iintro ⟨⟨⟨G0, G1, G2, G3, G4, G5, G6, G7, HS⟩, Hg⟩, Ho, ⟨%d0, H0⟩, ⟨%d1, H1⟩, ⟨%d2, H2⟩⟩
      iapply (run1_B c (grid1.coords t) _ _ _ _ _ _ _ _ (fun h => h0 ((hcond1_0 t).mp h)) hn1
        (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [G0 G1 G2 G3 G4 G5 G6 G7 HS Hg]
      · isplitr [Hg]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          iexact HS
        iexact Hg
      isplitl [Ho]; · iexact Ho
      isplitl [H0]; · iexact H0
      isplitl [H1]; · iexact H1
      iexists _; iexact H2

/-- The body obligation of the down call, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- Before the first point the invariant is what the launch hands the call. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point it gives that back: what the accumulator holds is forgotten. -/
theorem hout1 (c : Dev nD) : (dat1 V c).Φ (Fin.last cfg1.N) ⊢ (Pipeline.ΦA spec1 c : sProp 𝕄) := by
  have hN : (Fin.last cfg1.N).val ≠ 0 := by
    rw [Fin.val_last]; have : cfg1.N = 112 := N_1; omega
  rw [show (dat1 V c).Φ (Fin.last cfg1.N) = PhiS1 V c (Fin.last cfg1.N).val (Nat.le_of_lt_succ (Fin.last cfg1.N).isLt) from rfl,
    PhiS1_pos V c _ _ hN, PhiA1_eq]
  unfold others1
  iintro ⟨⟨G0, G1, G2, G3, G4, G5, G6, G7, HS⟩, Hg⟩
  isplitr [Hg]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexists _; iexact HS
  iexact Hg

end Cert.KernelIdeal.Hand

end
-- ==== Proof.KI.Run.lean ====
/-
  The whole program as four stretches: the host operations that flatten and narrow the arguments, the gate/up call, the
  down call, the host reshape of the result — and what every unscoped buffer holds at each boundary between them.

  W0 is the launch memory; W1 what the first host stretch leaves; W2 what the gate/up call's write-backs leave (its output
  array at what the pipeline folds from the per-point blocks, everything else untouched); W3 the same for the down call,
  entered from W2; W4 what the final reshape leaves. Every weakly fair execution terminates and the final memory holds W4
  at every unscoped buffer. No stretch writes an argument, so each argument is read back through the four steps to the
  launch memory.
-/
import proofs.«175266_j37907381355066_1_alg».proof.Proof.Gen.KernelIdeal.Launch
import proofs.«175266_j37907381355066_1_alg».proof.Proof.Gen.KernelIdeal.Skeleton
import proofs.«175266_j37907381355066_1_alg».proof.Proof.Gen.KernelIdeal.Points
import proofs.«175266_j37907381355066_1_alg».proof.Proof.KI.GateUpData
import proofs.«175266_j37907381355066_1_alg».proof.Proof.KI.DownData
import proofs.«175266_j37907381355066_1_alg».proof.Proof.KI.GateUpBody
import proofs.«175266_j37907381355066_1_alg».proof.Proof.KI.DownBody
import proofs.«175266_j37907381355066_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the gate/up call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the down call, entered from W2. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the final reshape. -/
abbrev W4 : Dev nD → Valuation τ sig (Elt F) := fun c => StableHlo.after hostOps2 (W3 m ρ c)

/-! ## The proof data family, the thread state, the segments -/

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c

abbrev 𝒱₀ : Variants := Variants.none
abbrev L : GSem nD τ sig → Finset Unit := fun _ => ∅
abbrev lv : GSem nD τ sig → Unit → ℕ := fun _ _ => 0

/-- What rides beside the buffers through every segment: the generator register at some state, and the core owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The gate/up call over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generator register and the scoped buffers no window of the down call stages make the class's invariant, -/
theorem phiA_of1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp

/-- and the class's invariant gives them back. -/
theorem phiA_to1 (c : Dev nD) :
    (Pipeline.ΦA spec1 c : sProp 𝕄)
      ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
/-- The down call over the thread state: entered from every unscoped buffer at W2, left at W3. Its invariant starts as
    the class's and ends as the class's (the accumulator's named contents forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_of1 c _).trans (show (Pipeline.ΦA spec1 c : sProp 𝕄) ⊢ (pdats m ρ 1 c).Φ 0 from hin1 (V2 m ρ) c)
  hout c := by
    rw [Pipeline.ownSems0_none]
    exact (show (pdats m ρ 1 c).Φ (Fin.last _) ⊢ (Pipeline.ΦA spec1 c : sProp 𝕄) from hout1 (V2 m ρ) c).trans (phiA_to1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution terminates, nothing faulting, and the final
    memory holds W4 at every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W1_of (c : Dev nD) (r : Ref sig .tc) (h : r ∉ hostOps0_W) : W1 m ρ c r = W0 m ρ c r :=
  StableHlo.after_of_writes_sub hostOps0 _ hostOps0_writes h
theorem W4_of (c : Dev nD) (r : Ref sig .tc) (h : r ∉ hostOps2_W) : W4 m ρ c r = W3 m ρ c r :=
  StableHlo.after_of_writes_sub hostOps2 _ hostOps2_writes h

/-- A buffer that no host stretch writes and that is no array of either call's windows holds its launch contents at the end. -/
theorem W4_kept (c : Dev nD) (r : Ref sig .tc) (h2 : r ∉ hostOps2_W) (h1 : ∀ w, Pipeline.arrRef spec1 w ≠ r)
    (h0 : ∀ w, Pipeline.arrRef spec0 w ≠ r) (hh : r ∉ hostOps0_W) : W4 m ρ c r = m ((c : Thread nD τ).loc r) :=
  (W4_of m ρ c r h2).trans <| (W3_of_ne m ρ c r h1).trans <| (W2_of_ne m ρ c r h0).trans <| (W1_of m ρ c r hh).trans rfl

/-- THE FRAME: every weakly fair execution terminates, nothing faulting, the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_kept m ρ c main_arg0 (by decide) (by decide) (by decide) (by decide)),
     (h c _ (mem_uc main_arg1 (by decide))).trans (W4_kept m ρ c main_arg1 (by decide) (by decide) (by decide) (by decide)),
     (h c _ (mem_uc main_arg2 (by decide))).trans (W4_kept m ρ c main_arg2 (by decide) (by decide) (by decide) (by decide)),
     (h c _ (mem_uc main_arg3 (by decide))).trans (W4_kept m ρ c main_arg3 (by decide) (by decide) (by decide) (by decide))⟩)
    (run_all m ρ)

end Cert.KernelIdeal.Hand

end
-- ==== Proof.LibProductNT.lean ====
/-
  A matrix times the transpose of another, over the extended reals.

  Entry (a, b) of A·Bᵀ, for an r×k matrix A and an n×k matrix B, is the sum over the shared column coordinate c of
  A(a, c) · B(b, c). Addition of extended reals is commutative and associative, so this is a plain finite sum: no order
  of summation is left in it and nothing asks that an entry be finite.

  The matrix unit forms such a product (both operands contracted along axis 1) and adds it to an accumulator; into a zero
  accumulator it leaves exactly that entry (`matmul_zero_apply`), whatever float formats the factors were narrowed to on
  the way, a change of format being the identity at the ideal values.

  A long row splits into consecutive stretches of equal length: a sum over m·n columns is the sum over the m stretches of
  the sums over each stretch's n columns (`sum_stretches`).
-/
import Idealize.ShloMosaic.Lib.ValueIdx
import Idealize.ShloMosaic.PureOps.Ideal.Laws
import Mathlib.Algebra.BigOperators.Fin
import Mathlib.Logic.Equiv.Fin.Basic

noncomputable section

namespace ProductNT

open Idealize.ShloMosaic Idealize.ShloMosaic.ValueIdx

variable {r k n : Nat}

/-- Entry (a, b) of A·Bᵀ. -/
def entry (A : (⟨2, ![r, k]⟩ : Shape).Idx → EReal) (B : (⟨2, ![n, k]⟩ : Shape).Idx → EReal) (a : Fin r) (b : Fin n) : EReal :=
  ∑ c : Fin k, A (ix2 a c) * B (ix2 b c)

/-- The matrix unit's product of an r×k by an n×k operand, both contracted along their second axis, accumulated into a
    zero block and read at (a, b), is that entry. -/
theorem matmul_zero_apply {φ₁ φ₂ : FTy}
    (w : DotDims.WF ⟨2, ![r, k]⟩ ⟨2, ![n, k]⟩ ⟨2, ![r, n]⟩ [1] [1] [0] [0] [] [])
    (prec : Option ContractPrecision) (A : FVec Ideal ⟨2, ![r, k]⟩ φ₁) (B : FVec Ideal ⟨2, ![n, k]⟩ φ₂) (a : Fin r) (b : Fin n) :
    matmul (⟨[1], [1], [0], [0], [], [], w⟩ : DotDims _ _ _) prec A B (constant (F := Ideal) ⟨2, ![r, n]⟩ .f32 0x00000000#32) (ix2 a b)
      = entry A B a b := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![r, k]⟩ ⟨2, ![n, k]⟩ ⟨2, ![r, n]⟩) k rfl rfl c
  have l2 : (⟨[1], [1], [0], [0], [], [], w⟩ : DotDims ⟨2, ![r, k]⟩ ⟨2, ![n, k]⟩ ⟨2, ![r, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![r, k]⟩ ⟨2, ![n, k]⟩ ⟨2, ![r, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A sum over m·n consecutive columns is the sum, over the m stretches of n columns, of each stretch's sum. -/
theorem sum_stretches {M : Type*} [AddCommMonoid M] (m n : Nat) (f : Fin (m * n) → M) :
    ∑ c : Fin (m * n), f c
      = ∑ s : Fin m, ∑ j : Fin n, f ⟨s.val * n + j.val, by
          have hs := s.isLt; have hj := j.isLt
          calc s.val * n + j.val < s.val * n + n := by omega
            _ = (s.val + 1) * n := by ring
            _ ≤ m * n := Nat.mul_le_mul_right n hs⟩ := by
  rw [← Equiv.sum_comp finProdFinEquiv f, Fintype.sum_prod_type]
  refine Finset.sum_congr rfl fun s _ => Finset.sum_congr rfl fun j _ => congrArg f (Fin.ext ?_)
  show j.val + n * s.val = s.val * n + j.val
  rw [Nat.mul_comm, Nat.add_comm]

end ProductNT

end
-- ==== Proof.Spec.lean ====
/-
  The gated feed-forward block, as one function of its four arrays over the extended reals.

  x is a stack of 2 × 2048 rows of 4096 entries, Wg and Wu are 14336 × 4096, Wd is 4096 × 14336. For a row x(b, s, ·):
    g(i) = Σ_h x(b, s, h) · Wg(i, h),   u(i) = Σ_h x(b, s, h) · Wu(i, h),
    a(i) = (g(i) · σ(g(i))) · u(i)       with σ the logistic function 1 / (1 + e^(-g)),
    out(b, s, n) = Σ_i a(i) · Wd(n, i).
  The same is stated for the 4096 rows laid flat (row r = 2048·b + s), which is how the two matrix-unit calls see them,
  and the last sum is also split into its 14 stretches of 1024 columns, which is how the second call forms it.
-/
import Idealize.ShloMosaic.Lib.ValueIdx
import Idealize.ShloMosaic.PureOps.Ideal
import proofs.«175266_j37907381355066_1_alg».proof.Proof.LibProductNT

noncomputable section

namespace Swiglu

open Idealize.ShloMosaic Idealize.ShloMosaic.ValueIdx

abbrev SX : Shape := ⟨3, ![2, 2048, 4096]⟩
abbrev SXf : Shape := ⟨2, ![4096, 4096]⟩
abbrev SW : Shape := ⟨2, ![14336, 4096]⟩
abbrev SA : Shape := ⟨2, ![4096, 14336]⟩

/-! ## Rows laid flat -/

/-- Row r of the flat activations against row i of a weight matrix. -/
def projR (x2 : SXf.Idx → EReal) (w : SW.Idx → EReal) (r : Fin 4096) (i : Fin 14336) : EReal :=
  ∑ h : Fin 4096, x2 (ix2 r h) * w (ix2 i h)

/-- The gated activation at (r, i). -/
def actR (x2 : SXf.Idx → EReal) (wg wu : SW.Idx → EReal) (r : Fin 4096) (i : Fin 14336) : EReal :=
  (projR x2 wg r i * Ideal.logistic (projR x2 wg r i)) * projR x2 wu r i

/-- The gated activations as an array. -/
def actArr (x2 : SXf.Idx → EReal) (wg wu : SW.Idx → EReal) : SA.Idx → EReal :=
  fun j => actR x2 wg wu (j 0) (j 1)

/-- Row r of an activation array against row n of the down matrix. -/
def downR (a : SA.Idx → EReal) (wd : SA.Idx → EReal) (r n : Fin 4096) : EReal :=
  ∑ i : Fin 14336, a (ix2 r i) * wd (ix2 n i)

/-- The same sum, stretch by stretch: 14 stretches of 1024 columns. -/
theorem downR_stretches (a wd : SA.Idx → EReal) (r n : Fin 4096) :
    downR a wd r n
      = ∑ s : Fin 14, ∑ j : Fin 1024,
          a (ix2 r (⟨s.val * 1024 + j.val, by have := s.isLt; have := j.isLt; omega⟩ : Fin 14336))
            * wd (ix2 n (⟨s.val * 1024 + j.val, by have := s.isLt; have := j.isLt; omega⟩ : Fin 14336)) :=
  ProductNT.sum_stretches 14 1024 fun i : Fin (14 * 1024) => a (ix2 r i) * wd (ix2 n i)

/-- The flat result as an array. -/
def downArr (a wd : SA.Idx → EReal) : SXf.Idx → EReal := fun j => downR a wd (j 0) (j 1)

/-! ## Rows by (b, s) -/

def proj (x : SX.Idx → EReal) (w : SW.Idx → EReal) (b : Fin 2) (s : Fin 2048) (i : Fin 14336) : EReal :=
  ∑ h : Fin 4096, x (ix3 b s h) * w (ix2 i h)

def act (x : SX.Idx → EReal) (wg wu : SW.Idx → EReal) (b : Fin 2) (s : Fin 2048) (i : Fin 14336) : EReal :=
  (proj x wg b s i * Ideal.logistic (proj x wg b s i)) * proj x wu b s i

/-- THE RESULT: out(b, s, n). -/
def G (x : SX.Idx → EReal) (wg wu : SW.Idx → EReal) (wd : SA.Idx → EReal) : SX.Idx → EReal :=
  fun j => ∑ i : Fin 14336, act x wg wu (j 0) (j 1) i * wd (ix2 (j 2) i)

theorem G_apply (x : SX.Idx → EReal) (wg wu : SW.Idx → EReal) (wd : SA.Idx → EReal) (b : Fin 2) (s : Fin 2048) (n : Fin 4096) :
    G x wg wu wd (ix3 b s n) = ∑ i : Fin 14336, act x wg wu b s i * wd (ix2 n i) := rfl

/-- Row r = 2048·b + s of the flat activations is row (b, s). -/
def flatRow (b : Fin 2) (s : Fin 2048) : Fin 4096 := ⟨b.val * 2048 + s.val, by have := b.isLt; have := s.isLt; omega⟩

/-- The flat activations of x: entry (2048·b + s, h) is x(b, s, h). -/
def flatten (x : SX.Idx → EReal) : SXf.Idx → EReal :=
  fun j => x (ix3 (⟨(j 0).val / 2048, by have h : (j 0).val < 4096 := (j 0).isLt; omega⟩ : Fin 2) (⟨(j 0).val % 2048, Nat.mod_lt _ (by norm_num)⟩ : Fin 2048) (j 1))

theorem flatten_flatRow (x : SX.Idx → EReal) (b : Fin 2) (s : Fin 2048) (h : Fin 4096) :
    flatten x (ix2 (flatRow b s) h) = x (ix3 b s h) := by
  have hb := b.isLt; have hs := s.isLt
  show x (ix3 _ _ h) = _
  congr 1
  · apply congrArg₂ (fun p q => ix3 p q h) <;> apply Fin.ext
    · show (b.val * 2048 + s.val) / 2048 = b.val; omega
    · show (b.val * 2048 + s.val) % 2048 = s.val; omega

/-- The flat computation at row 2048·b + s is the computation at (b, s). -/
theorem G_flat (x : SX.Idx → EReal) (wg wu : SW.Idx → EReal) (wd : SA.Idx → EReal) (b : Fin 2) (s : Fin 2048) (n : Fin 4096) :
    downR (actArr (flatten x) wg wu) wd (flatRow b s) n = G x wg wu wd (ix3 b s n) := by
  rw [G_apply]
  unfold downR actArr actR act projR proj
  simp only [flatten_flatRow]

end Swiglu

end
-- ==== Proof.KI.Result.lean ====
/-
  The result buffer at the end of the idealized program is the gated feed-forward block of the four arguments.

  Read backwards through the program's four stretches: the result is the final reshape of the down call's output array;
  that array is the flat down projection of the gate/up call's output array against the down matrix; the gate/up call's
  output array is the gated activation array of the flat activations against the gate and up matrices; and the host
  stretch in front leaves the flat activations as the rows of x laid out one after the other, and the three matrices as
  they were (a change of float format is the identity on the extended reals). Row 2048·b + s of the flat computation is
  row (b, s) of the stacked one.
-/
import proofs.«175266_j37907381355066_1_alg».proof.Proof.KI.Run
import proofs.«175266_j37907381355066_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen Idealize.ShloMosaic.StableHlo

variable (m : (ℓ : Loc nD τ sig) → Buf (Elt Ideal) ℓ) (ρ : Dev nD → PrngReg)

/-! ## What the first host stretch leaves -/

/-- The flat activations: x reshaped to 4096 rows and narrowed. -/
theorem V1_v1 (c : Dev nD) :
    (V1 (F := Ideal) m ρ c main_v1 : Swiglu.SXf.Idx → EReal) = Swiglu.flatten (m ((c : Thread nD τ).loc main_arg0)) := by
  show StableHlo.after hostOps0 (W0 m ρ c) (Proc.devRef .tc main_v1) = _
  after_results
  funext j
  obtain ⟨r, h, rfl⟩ : ∃ (r : Fin 4096) (h : Fin 4096), j = ix2 r h := ⟨j 0, j 1, eq_ix2 j⟩
  have hr := r.isLt
  show shapeCast S4096x4096 (m ((c : Thread nD τ).loc main_arg0)) shapeCasts_S2x2048x4096_S4096x4096 (ix2 r h) = _
  refine (shapeCast_apply _ _ _ (ix3 (⟨r.val / 2048, by omega⟩ : Fin 2) (⟨r.val % 2048, Nat.mod_lt _ (by norm_num)⟩ : Fin 2048) h) ?_).trans rfl
  rw [Shape.rowMajor_val_three, Shape.rowMajor_val_two]
  show (r.val / 2048 * 2048 + r.val % 2048) * 4096 + h.val = r.val * 4096 + h.val
  have := Nat.div_add_mod r.val 2048
  omega

/-- The three matrices, narrowed: as launched. -/
theorem V1_v2 (c : Dev nD) : (V1 (F := Ideal) m ρ c main_v2 : Swiglu.SW.Idx → EReal) = m ((c : Thread nD τ).loc main_arg1) := by
  show StableHlo.after hostOps0 (W0 m ρ c) (Proc.devRef .tc main_v2) = _
  after_results
  rfl
theorem V1_v3 (c : Dev nD) : (V1 (F := Ideal) m ρ c main_v3 : Swiglu.SW.Idx → EReal) = m ((c : Thread nD τ).loc main_arg2) := by
  show StableHlo.after hostOps0 (W0 m ρ c) (Proc.devRef .tc main_v3) = _
  after_results
  rfl
theorem V1_v4 (c : Dev nD) : (V1 (F := Ideal) m ρ c main_v4 : Swiglu.SA.Idx → EReal) = m ((c : Thread nD τ).loc main_arg3) := by
  show StableHlo.after hostOps0 (W0 m ρ c) (Proc.devRef .tc main_v4) = _
  after_results
  rfl

/-! ## What the last host stretch leaves -/

theorem W4_v7 (c : Dev nD) :
    (W4 (F := Ideal) m ρ c main_v7 : S2x2048x4096.Idx → EReal)
      = shapeCast S2x2048x4096 (W3 (F := Ideal) m ρ c main_v6 : S4096x4096.Idx → EReal) shapeCasts_S4096x4096_S2x2048x4096 := by
  show StableHlo.after hostOps2 (W3 m ρ c) (Proc.devRef .tc main_v7) = _
  after_results
  rfl

/-! ## The result -/

/-- Given what the two calls leave in their output arrays (the gated activation array; the flat down projection), the
    result buffer ends at the gated feed-forward block of the arguments. -/
theorem result
    (h0 : ∀ (V : (c : Dev nD) → (b : Ref sig .tc) → Buf (Elt Ideal) ((c : Thread nD τ).loc b)) (c : Dev nD),
      ((dat0 (F := Ideal) V c).arrAt 3 cfg0.N : Swiglu.SA.Idx → EReal) = Swiglu.actArr (V c main_v1) (V c main_v2) (V c main_v3))
    (h1 : ∀ (V : (c : Dev nD) → (b : Ref sig .tc) → Buf (Elt Ideal) ((c : Thread nD τ).loc b)) (c : Dev nD),
      ((dat1 (F := Ideal) V c).arrAt 2 cfg1.N : Swiglu.SXf.Idx → EReal) = Swiglu.downArr (V c main_v5) (V c main_v4))
    (c : Dev nD) :
    (W4 (F := Ideal) m ρ c main_v7 : Swiglu.SX.Idx → EReal)
      = Swiglu.G (m ((c : Thread nD τ).loc main_arg0)) (m ((c : Thread nD τ).loc main_arg1))
          (m ((c : Thread nD τ).loc main_arg2)) (m ((c : Thread nD τ).loc main_arg3)) := by
  have e6 : (W3 (F := Ideal) m ρ c main_v6 : Swiglu.SXf.Idx → EReal)
      = Swiglu.downArr (V2 (F := Ideal) m ρ c main_v5) (V2 (F := Ideal) m ρ c main_v4) :=
    (W3_arr m ρ c 2).trans (h1 (V2 m ρ) c)
  have e5 : (V2 (F := Ideal) m ρ c main_v5 : Swiglu.SA.Idx → EReal)
      = Swiglu.actArr (Swiglu.flatten (m ((c : Thread nD τ).loc main_arg0))) (m ((c : Thread nD τ).loc main_arg1)) (m ((c : Thread nD τ).loc main_arg2)) := by
    refine ((W2_arr m ρ c 3).trans (h0 (V1 m ρ) c)).trans ?_
    rw [V1_v1, V1_v2, V1_v3]
  have e4 : (V2 (F := Ideal) m ρ c main_v4 : Swiglu.SA.Idx → EReal) = m ((c : Thread nD τ).loc main_arg3) :=
    (W2_of_ne m ρ c main_v4 (by decide)).trans (V1_v4 m ρ c)
  rw [W4_v7, e6, e5, e4]
  funext j
  obtain ⟨b, s, n, rfl⟩ : ∃ (b : Fin 2) (s : Fin 2048) (n : Fin 4096), j = ix3 b s n := ⟨j 0, j 1, j 2, eq_ix3 j⟩
  refine (shapeCast_apply _ _ _ (ix2 (Swiglu.flatRow b s) n) ?_).trans ?_
  · rw [Shape.rowMajor_val_three, Shape.rowMajor_val_two]
    rfl
  · exact Swiglu.G_flat _ _ _ _ b s n

end Cert.KernelIdeal.Hand

end
-- ==== Proof.KI.GateUpValue.lean ====
/-
  The gate/up projection call at the ideal values: the array it leaves in its output window.

  Floats are extended reals here and every change of float format is the identity. A grid point (n, m) is handed rows
  256·m … 256·m + 255 of the activations and rows 1024·n … 1024·n + 1023 of the two weight matrices; its two products into
  zero accumulators are the plain sums g(p, q) = Σ_h x(p, h) · Wg(q, h) and u(p, q) = Σ_h x(p, h) · Wu(q, h), and it stores
  (g · σ(g)) · u whole into block (m, n) of the output. Block (m, n) of the specification's gated activation array is that
  same function of the same rows, the 14 × 16 blocks tile the 4096 × 14336 array, so the array ends holding it.
-/
import proofs.«175266_j37907381355066_1_alg».proof.Proof.Gen.KernelIdeal.Launch
import proofs.«175266_j37907381355066_1_alg».proof.Proof.Gen.KernelIdeal.Skeleton
import proofs.«175266_j37907381355066_1_alg».proof.Proof.Gen.KernelIdeal.Points
import proofs.«175266_j37907381355066_1_alg».proof.Proof.KI.GateUpData
import proofs.«175266_j37907381355066_1_alg».proof.Proof.Spec
import proofs.«175266_j37907381355066_1_alg».proof.Proof.LibProductNT
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! Everything but the closing theorem lives in its own namespace, so that the names stay this module's. -/
namespace GateUpValue

/-! ## One point's block, entry by entry -/

/-- The offsets of a whole-block load or store are zero on both axes. -/
theorem offsets_zero : (![0, 0] : Fin 2 → Nat) = fun _ => 0 := funext fun a => by fin_cases a <;> rfl

/-- The matrix unit's product of an activation block by a weight block into a zero accumulator, as the body forms it. -/
abbrev blockProduct (x : Vec Ideal S256x4096 .bf16) (w : Vec Ideal S1024x4096 .bf16) : FVec Ideal S256x1024 .f32 :=
  matmul (φ₁ := .bf16) (φ₂ := .bf16) dot_S256x4096_S1024x4096_S256x1024_1_1_0_0_n_n none
    (shapeCast S256x4096 x shapeCasts_S256x4096_S256x4096) (shapeCast S1024x4096 w shapeCasts_S1024x4096_S1024x4096)
    (constant (F := Ideal) S256x1024 .f32 0x00000000#32)

/-- Its entry (p, q) is the sum over the shared column h of x(p, h) · w(q, h). -/
theorem blockProduct_apply (x : Vec Ideal S256x4096 .bf16) (w : Vec Ideal S1024x4096 .bf16) (p : Fin 256) (q : Fin 1024) :
    blockProduct x w (ix2 p q) = ∑ h : Fin 4096, x (ix2 p h) * w (ix2 q h) := by
  unfold blockProduct
  rw [shapeCast_self, shapeCast_self]
  exact ProductNT.matmul_zero_apply _ none x w p q

/-- What a point stores at (p, q) of its output block: (g · σ(g)) · u of the two sums. -/
theorem stored_apply (x0 : Vec Ideal S256x4096 .bf16) (x1 x2 : Vec Ideal S1024x4096 .bf16) (p : Fin 256) (q : Fin 1024) :
    k0_pay1 x0 x1 x2 (ix2 p q)
      = ((∑ h : Fin 4096, x0 (ix2 p h) * x1 (ix2 q h)) * Ideal.logistic (∑ h : Fin 4096, x0 (ix2 p h) * x1 (ix2 q h)))
          * ∑ h : Fin 4096, x0 (ix2 p h) * x2 (ix2 q h) := by
  have e : k0_pay1 x0 x1 x2 (ix2 p q)
      = (blockProduct x0 x1 (ix2 p q) * Ideal.logistic (blockProduct x0 x1 (ix2 p q))) * blockProduct x0 x2 (ix2 p q) := rfl
  rw [e, blockProduct_apply, blockProduct_apply]

/-! ## The index maps over the grid -/

/-- Point t of the 14 × 16 grid is (n, m) = (t / 16, t % 16): the activations' block there is (m, 0), both weight
    matrices' is (n, 0), the output's is (m, n). -/
theorem block_indices : ∀ t : Fin cfg0.N,
    win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = t.val % 16 ∧ win0_3.index t (1 : Fin 2) = t.val / 16 :=
  (by decide +kernel : ∀ t : Fin grid0.N, _)

/-! ## The arrays and a point's blocks, by their shapes -/

variable (V : (c : Dev nD) → (b : Ref sig .tc) → Buf (Elt Ideal) ((c : Thread nD τ).loc b))

/-- The activations, the gate weights and the up weights as the call finds them. -/
abbrev xarr (c : Dev nD) : Vec Ideal S4096x4096 .bf16 := V c main_v1
abbrev garr (c : Dev nD) : Vec Ideal S14336x4096 .bf16 := V c main_v2
abbrev uarr (c : Dev nD) : Vec Ideal S14336x4096 .bf16 := V c main_v3

/-- Their blocks at point t. -/
abbrev xblk (c : Dev nD) (t : Fin cfg0.N) : Vec Ideal S256x4096 .bf16 := iblk0 V c 0 t
abbrev gblk (c : Dev nD) (t : Fin cfg0.N) : Vec Ideal S1024x4096 .bf16 := iblk0 V c 1 t
abbrev ublk (c : Dev nD) (t : Fin cfg0.N) : Vec Ideal S1024x4096 .bf16 := iblk0 V c 2 t

/-- Row p of the activation block at point t is row 256 · (t % 16) + p of the activations. -/
theorem xblk_apply (c : Dev nD) (t : Fin cfg0.N) (p : Fin 256) (h : Fin 4096) (r : Fin 4096)
    (hr : r.val = t.val % 16 * 256 + p.val) : xblk V c t (ix2 p h) = xarr V c (ix2 r h) := by
  obtain ⟨e0, e1, e2, e3, e4, e5, e6, e7⟩ := block_indices t
  show V c main_v1 (((cfg0.win 0).blk t).view.emb (ix2 p h)) = V c main_v1 (ix2 r h)
  congr 1
  funext a; apply Fin.ext
  match a with
  | ⟨0, _⟩ => show win0_0.index t (0 : Fin 2) * 256 + 1 * p.val = r.val; omega
  | ⟨1, _⟩ => show win0_0.index t (1 : Fin 2) * 4096 + 1 * h.val = h.val; omega

/-- Row q of the gate-weight block at point t is row 1024 · (t / 16) + q of the gate weights. -/
theorem gblk_apply (c : Dev nD) (t : Fin cfg0.N) (q : Fin 1024) (h : Fin 4096) (i : Fin 14336)
    (hi : i.val = t.val / 16 * 1024 + q.val) : gblk V c t (ix2 q h) = garr V c (ix2 i h) := by
  obtain ⟨e0, e1, e2, e3, e4, e5, e6, e7⟩ := block_indices t
  show V c main_v2 (((cfg0.win 1).blk t).view.emb (ix2 q h)) = V c main_v2 (ix2 i h)
  congr 1
  funext a; apply Fin.ext
  match a with
  | ⟨0, _⟩ => show win0_1.index t (0 : Fin 2) * 1024 + 1 * q.val = i.val; omega
  | ⟨1, _⟩ => show win0_1.index t (1 : Fin 2) * 4096 + 1 * h.val = h.val; omega

/-- Row q of the up-weight block at point t is row 1024 · (t / 16) + q of the up weights. -/
theorem ublk_apply (c : Dev nD) (t : Fin cfg0.N) (q : Fin 1024) (h : Fin 4096) (i : Fin 14336)
    (hi : i.val = t.val / 16 * 1024 + q.val) : ublk V c t (ix2 q h) = uarr V c (ix2 i h) := by
  obtain ⟨e0, e1, e2, e3, e4, e5, e6, e7⟩ := block_indices t
  show V c main_v3 (((cfg0.win 2).blk t).view.emb (ix2 q h)) = V c main_v3 (ix2 i h)
  congr 1
  funext a; apply Fin.ext
  match a with
  | ⟨0, _⟩ => show win0_2.index t (0 : Fin 2) * 1024 + 1 * q.val = i.val; omega
  | ⟨1, _⟩ => show win0_2.index t (1 : Fin 2) * 4096 + 1 * h.val = h.val; omega

/-- So what point t stores at (p, q) is the gated activation at row 256 · (t % 16) + p, column 1024 · (t / 16) + q. -/
theorem stored_eq (c : Dev nD) (t : Fin cfg0.N) (p : Fin 256) (q : Fin 1024) (r : Fin 4096) (i : Fin 14336)
    (hr : r.val = t.val % 16 * 256 + p.val) (hi : i.val = t.val / 16 * 1024 + q.val) :
    k0_pay1 (xblk V c t) (gblk V c t) (ublk V c t) (ix2 p q) = Swiglu.actR (xarr V c) (garr V c) (uarr V c) r i := by
  have hg : (∑ h : Fin 4096, xblk V c t (ix2 p h) * gblk V c t (ix2 q h)) = Swiglu.projR (xarr V c) (garr V c) r i :=
    Finset.sum_congr rfl fun h _ => congrArg₂ (· * ·) (xblk_apply V c t p h r hr) (gblk_apply V c t q h i hi)
  have hu : (∑ h : Fin 4096, xblk V c t (ix2 p h) * ublk V c t (ix2 q h)) = Swiglu.projR (xarr V c) (uarr V c) r i :=
    Finset.sum_congr rfl fun h _ => congrArg₂ (· * ·) (xblk_apply V c t p h r hr) (ublk_apply V c t q h i hi)
  rw [stored_apply, hg, hu]
  rfl

/-! ## What a point writes back, the cover, and the array -/

/-- Entry (p, q) of the output block at point t lies at row 256 · (t % 16) + p, column 1024 · (t / 16) + q of the array. -/
theorem out_emb (t : Fin cfg0.N) (p : Fin 256) (q : Fin 1024) (r : Fin 4096) (i : Fin 14336)
    (hr : r.val = t.val % 16 * 256 + p.val) (hi : i.val = t.val / 16 * 1024 + q.val) :
    ((cfg0.win 3).blk t).view.emb (ix2 p q) = (ix2 r i : S4096x14336.Idx) := by
  obtain ⟨e0, e1, e2, e3, e4, e5, e6, e7⟩ := block_indices t
  funext a; apply Fin.ext
  match a with
  | ⟨0, _⟩ => show win0_3.index t (0 : Fin 2) * 256 + 1 * p.val = r.val; omega
  | ⟨1, _⟩ => show win0_3.index t (1 : Fin 2) * 1024 + 1 * q.val = i.val; omega

/-- What point t writes back to the output array is block t of the gated activation array. -/
theorem flushed_eq (c : Dev nD) (t : Fin cfg0.N) :
    (dat0 (F := Ideal) V c).flushed 3 t
      = ((cfg0.win 3).blk t).view.read (Elt Ideal) (Swiglu.actArr (xarr V c) (garr V c) (uarr V c)) := by
  show (cfg0.win 3).cut (grid0.coords t) ((dat0 V c).after 3 t) = _
  rw [after0_3]
  unfold out0_3
  rw [View.canon_unit_zero offsets_zero]
  simp only [View.ld_unit_zero (S := S256x4096) offsets_zero, View.ld_unit_zero (S := S1024x4096) offsets_zero]
  have ht : t.val < 224 := Nat.lt_of_lt_of_eq t.isLt N_0
  funext j
  obtain ⟨p, q, rfl⟩ : ∃ (p : Fin 256) (q : Fin 1024), j = ix2 p q := ⟨j 0, j 1, eq_ix2 j⟩
  have hp := p.isLt
  have hq := q.isLt
  obtain ⟨r, hr⟩ : ∃ r : Fin 4096, r.val = t.val % 16 * 256 + p.val := ⟨⟨_, by omega⟩, rfl⟩
  obtain ⟨i, hi⟩ : ∃ i : Fin 14336, i.val = t.val / 16 * 1024 + q.val := ⟨⟨_, by omega⟩, rfl⟩
  show k0_pay1 (xblk V c t) (gblk V c t) (ublk V c t) (ix2 p q)
    = Swiglu.actArr (xarr V c) (garr V c) (uarr V c) (((cfg0.win 3).blk t).view.emb (ix2 p q))
  rw [out_emb t p q r i hr hi]
  exact stored_eq V c t p q r i hr hi
/-- An index of the output array is in point t's block iff each coordinate is in the block's range on its axis. -/
theorem mem_block (t : Fin cfg0.N) (i : S4096x14336.Idx) :
    i ∈ ((cfg0.win 3).blk t).view.set
      ↔ ∀ a : Fin 2, win0_3.index t a * S256x1024.size a ≤ (i a).val ∧ (i a).val < win0_3.index t a * S256x1024.size a + S256x1024.size a := by
  show i ∈ ((View.whole main_v5).slice (win0_3.rect t)).set ↔ _
  rw [View.set_slice_whole, Rect.mem_set_unit]
  exact Iff.rfl

/-- The blocks tile the array: (r, i) is in the block of the point (i / 1024) · 16 + r / 256, and every point writes back. -/
theorem covered (i : S4096x14336.Idx) :
    ∃ t : Fin cfg0.N, (cfg0.win 3).flush t = true ∧ i ∈ ((cfg0.win 3).blk t).view.set := by
  have h0 : (i 0).val < 4096 := (i 0).isLt
  have h1 : (i 1).val < 14336 := (i 1).isLt
  have hN : cfg0.N = 224 := N_0
  obtain ⟨t, tv⟩ : ∃ t : Fin cfg0.N, t.val = (i 1).val / 1024 * 16 + (i 0).val / 256 :=
    ⟨⟨(i 1).val / 1024 * 16 + (i 0).val / 256, by rw [hN]; omega⟩, rfl⟩
  obtain ⟨e0, e1, e2, e3, e4, e5, e6, e7⟩ := block_indices t
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

end GateUpValue

/-- THE VALUE of the call: its output array ends holding the gated activation array of the arrays it was handed. -/
theorem arr0_3 (V : (c : Dev nD) → (b : Ref sig .tc) → Buf (Elt Ideal) ((c : Thread nD τ).loc b)) (c : Dev nD) :
    (dat0 (F := Ideal) V c).arrAt 3 cfg0.N = Swiglu.actArr (V c main_v1) (V c main_v2) (V c main_v3) :=
  (dat0 (F := Ideal) V c).arrAt_eq_of_cover 3
    (Swiglu.actArr (GateUpValue.xarr V c) (GateUpValue.garr V c) (GateUpValue.uarr V c))
    (fun t _ => GateUpValue.flushed_eq V c t) GateUpValue.covered

end Cert.KernelIdeal.Hand

end
-- ==== Proof.KI.DownValue.lean ====
/-
  The value of the down projection call at the ideal instance (floats are extended reals, a change of float format is
  the identity): the array left in the call's output window is the flat down-projection of the specification,
  out(r, n) = Σ_i a(r, i) · Wd(n, i) over all 14336 columns i.

  The grid is 8 × 14; the point numbered t = 14·i + k is handed block (i, k) of the activations a (512 rows, 1024
  columns), block (0, k) of the down matrix Wd (all 4096 rows, the same 1024 columns), and works on block (i, 0) of the
  result (512 rows, all 4096 columns). An entry of a block sits in its array at block index × block size + its own
  coordinate.

  1. One step of the accumulator at an entry (p, q): what was there plus Σ_{j<1024} A(p, j) · W(q, j) of the two blocks,
     the product being formed into a block of zeros and the shape casts being between equal shapes; the reset block is 0
     everywhere.
  2. The invariant, by induction on the point: after the point 14·i + k the accumulator's entry (p, q) is
     Σ_{s ≤ k} Σ_{j<1024} a(512·i + p, 1024·s + j) · Wd(q, 1024·s + j). At k = 0 the point adds its share to 0; at any
     other k it adds its share to what the point before left, which has the same i and one stretch fewer.
  3. At k = 13 the 14 stretches are all of the columns, so the entry is out(512·i + p, q).
  4. The output block is written back exactly at the points with k = 13, there at the accumulator's contents, and the
     blocks of those points cover the result: row r lies in the block of the point 14·(r / 512) + 13. So the array ends
     holding out.
-/
import proofs.«175266_j37907381355066_1_alg».proof.Proof.Gen.KernelIdeal.Launch
import proofs.«175266_j37907381355066_1_alg».proof.Proof.Gen.KernelIdeal.Skeleton
import proofs.«175266_j37907381355066_1_alg».proof.Proof.Gen.KernelIdeal.Points
import proofs.«175266_j37907381355066_1_alg».proof.Proof.KI.DownData
import proofs.«175266_j37907381355066_1_alg».proof.Proof.Spec
import proofs.«175266_j37907381355066_1_alg».proof.Proof.LibProductNT
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

namespace DownValue

/-- The zero block: every entry is 0. -/
theorem zeroBlock_apply (p : Fin 512) (q : Fin 4096) : (k1_pay1 (F := Ideal)) (ix2 p q) = 0 := by
  unfold k1_pay1
  refine (congrFun (shapeCast_self _ _) (ix2 p q)).trans ?_
  exact Ideal.ofBits_zero_f32

/-- One step of the accumulator at an entry: what was there plus the row-by-row product of the two blocks. -/
theorem step_apply (a : Vec Ideal S512x1024 .bf16) (w : Vec Ideal S4096x1024 .bf16) (prev : Vec Ideal S512x4096 .f32)
    (p : Fin 512) (q : Fin 4096) :
    k1_pay2 a w prev (ix2 p q) = prev (ix2 p q) + ∑ j : Fin 1024, a (ix2 p j) * w (ix2 q j) := by
  unfold k1_pay2
  refine (congrFun (shapeCast_self _ _) (ix2 p q)).trans ?_
  refine congrArg (prev (ix2 p q) + ·) ?_
  have ea : shapeCast S512x1024 a shapeCasts_S512x1024_S512x1024 = a := shapeCast_self _ _
  have ew : shapeCast S4096x1024 w shapeCasts_S4096x1024_S4096x1024 = w := shapeCast_self _ _
  refine Eq.trans ?_ (ProductNT.matmul_zero_apply (r := 512) (k := 1024) (n := 4096) (φ₁ := .bf16) (φ₂ := .bf16)
    dot_S512x1024_S4096x1024_S512x4096_1_1_0_0_n_n_wf none a w p q)
  rw [ea, ew]
  rfl

/-! ## The arrays and blocks, at their literal types -/

variable (V : (c : Dev nD) → (b : Ref sig .tc) → Buf (Elt Ideal) ((c : Thread nD τ).loc b))

/-- The activations, 4096 × 14336. -/
abbrev actArr (c : Dev nD) : Vec Ideal S4096x14336 .bf16 := V c main_v5
/-- The down matrix, 4096 × 14336. -/
abbrev wdArr (c : Dev nD) : Vec Ideal S4096x14336 .bf16 := V c main_v4
/-- The block of activations a point is handed, 512 × 1024. -/
abbrev actBlk (c : Dev nD) (t : Fin cfg1.N) : Vec Ideal S512x1024 .bf16 := iblk1 V c 0 t
/-- The block of the down matrix a point is handed, 4096 × 1024. -/
abbrev wdBlk (c : Dev nD) (t : Fin cfg1.N) : Vec Ideal S4096x1024 .bf16 := iblk1 V c 1 t

/-- The block indices over the grid: point t = 14·i + k reads block (i, k) of the activations, block (0, k) of the
    down matrix, and writes block (i, 0) of the result. -/
theorem blockIdx1_0 : ∀ t : Fin cfg1.N, win1_0.index t 0 = t.val / 14 ∧ win1_0.index t 1 = t.val % 14 :=
  (by decide +kernel : ∀ t : Fin grid1.N, win1_0.index t 0 = t.val / 14 ∧ win1_0.index t 1 = t.val % 14)
theorem blockIdx1_1 : ∀ t : Fin cfg1.N, win1_1.index t 0 = 0 ∧ win1_1.index t 1 = t.val % 14 :=
  (by decide +kernel : ∀ t : Fin grid1.N, win1_1.index t 0 = 0 ∧ win1_1.index t 1 = t.val % 14)
theorem blockIdx1_2 : ∀ t : Fin cfg1.N, win1_2.index t 0 = t.val / 14 ∧ win1_2.index t 1 = 0 :=
  (by decide +kernel : ∀ t : Fin grid1.N, win1_2.index t 0 = t.val / 14 ∧ win1_2.index t 1 = 0)

/-- Row p of the 512-row stretch that point n works on. -/
def rowAt (n : ℕ) (p : Fin 512) : Fin 4096 := ⟨512 * (n / 14 % 8) + p.val, by have := p.isLt; omega⟩
/-- Column j of the s-th stretch of 1024 columns. -/
def colAt (s : ℕ) (j : Fin 1024) : Fin 14336 := ⟨1024 * (s % 14) + j.val, by have := j.isLt; omega⟩

theorem actBlk_apply (c : Dev nD) (t : Fin cfg1.N) (p : Fin 512) (j : Fin 1024) :
    actBlk V c t (ix2 p j) = actArr V c (ix2 (rowAt t.val p) (colAt t.val j)) := by
  have hi := blockIdx1_0 t
  have hN : t.val < 112 := t.isLt
  unfold actBlk actArr iblk1
  rw [View.read_apply]
  show V c main_v5 _ = V c main_v5 _
  congr 1
  funext a
  apply Fin.ext
  match a with
  | ⟨0, _⟩ => show win1_0.index t 0 * 512 + 1 * p.val = 512 * (t.val / 14 % 8) + p.val; rw [hi.1]; omega
  | ⟨1, _⟩ => show win1_0.index t 1 * 1024 + 1 * j.val = 1024 * (t.val % 14) + j.val; rw [hi.2]; omega

theorem wdBlk_apply (c : Dev nD) (t : Fin cfg1.N) (q : Fin 4096) (j : Fin 1024) :
    wdBlk V c t (ix2 q j) = wdArr V c (ix2 q (colAt t.val j)) := by
  have hi := blockIdx1_1 t
  unfold wdBlk wdArr iblk1
  rw [View.read_apply]
  show V c main_v4 _ = V c main_v4 _
  congr 1
  funext a
  apply Fin.ext
  match a with
  | ⟨0, _⟩ => show win1_1.index t 0 * 4096 + 1 * q.val = q.val; rw [hi.1]; omega
  | ⟨1, _⟩ => show win1_1.index t 1 * 1024 + 1 * j.val = 1024 * (t.val % 14) + j.val; rw [hi.2]; omega

/-! ## The accumulator between points -/

/-- The s-th stretch's share of entry (r, n) of the product: the sum over that stretch's 1024 columns. -/
def stretch (A W : Swiglu.SA.Idx → EReal) (r n : Fin 4096) (s : ℕ) : EReal :=
  ∑ j : Fin 1024, A (ix2 r (colAt s j)) * W (ix2 n (colAt s j))

theorem colAt_mod (s : ℕ) (j : Fin 1024) : colAt s j = colAt (s % 14) j :=
  Fin.ext (by show 1024 * (s % 14) + j.val = 1024 * (s % 14 % 14) + j.val; omega)

theorem stretch_mod (A W : Swiglu.SA.Idx → EReal) (r n : Fin 4096) (s : ℕ) :
    stretch A W r n s = stretch A W r n (s % 14) := by
  unfold stretch
  refine Finset.sum_congr rfl fun j _ => ?_
  rw [colAt_mod s j]

/-- What one point adds at an entry: the share of the stretch the point is at. -/
theorem point_apply (c : Dev nD) (t : Fin cfg1.N) (prev : Vec Ideal S512x4096 .f32) (p : Fin 512) (q : Fin 4096) :
    k1_pay2 (actBlk V c t) (wdBlk V c t) prev (ix2 p q)
      = prev (ix2 p q) + stretch (actArr V c) (wdArr V c) (rowAt t.val p) q t.val := by
  refine (step_apply (actBlk V c t) (wdBlk V c t) prev p q).trans ?_
  refine congrArg (prev (ix2 p q) + ·) ?_
  unfold stretch
  refine Finset.sum_congr rfl fun j _ => ?_
  rw [actBlk_apply V c t p j, wdBlk_apply V c t q j]

/-- THE INVARIANT: after the point numbered n = 14·i + k the accumulator's entry (p, q) is the sum of the shares of the
    stretches 0, …, k of row 512·i + p against row q. -/
theorem acc_apply (c : Dev nD) : ∀ (n : ℕ) (hn : n < cfg1.N) (p : Fin 512) (q : Fin 4096),
    accAt1 V c n hn (ix2 p q)
      = ∑ s ∈ Finset.range (n % 14 + 1), stretch (actArr V c) (wdArr V c) (rowAt n p) q s := by
  intro n
  induction n with
  | zero =>
    intro hn p q
    refine (congrFun (accAt1_reset V c ⟨0, hn⟩ rfl) (ix2 p q)).trans ?_
    refine (point_apply V c ⟨0, hn⟩ (k1_pay1 (F := Ideal)) p q).trans ?_
    rw [zeroBlock_apply p q, zero_add]
    show _ = ∑ s ∈ Finset.range 1, _
    rw [Finset.sum_range_one]
  | succ n ih =>
    intro hn p q
    by_cases h0 : (n + 1) % 14 = 0
    · refine (congrFun (accAt1_reset V c ⟨n + 1, hn⟩ h0) (ix2 p q)).trans ?_
      refine (point_apply V c ⟨n + 1, hn⟩ (k1_pay1 (F := Ideal)) p q).trans ?_
      rw [zeroBlock_apply p q, zero_add, h0]
      show _ = ∑ s ∈ Finset.range 1, _
      rw [Finset.sum_range_one, stretch_mod, h0]
    · refine (congrFun (accAt1_add V c ⟨n + 1, hn⟩ h0) (ix2 p q)).trans ?_
      refine (point_apply V c ⟨n + 1, hn⟩ (accAt1 V c n (Nat.lt_of_succ_lt hn)) p q).trans ?_
      have e1 : (n + 1) % 14 = n % 14 + 1 := by omega
      have e2 : rowAt (n + 1) p = rowAt n p := Fin.ext (by
        show 512 * ((n + 1) / 14 % 8) + p.val = 512 * (n / 14 % 8) + p.val
        omega)
      rw [ih (Nat.lt_of_succ_lt hn) p q, e1, Finset.sum_range_succ _ (n % 14 + 1), e2]
      refine congrArg (_ + ·) ?_
      show stretch (actArr V c) (wdArr V c) (rowAt n p) q (n + 1) = _
      rw [stretch_mod, e1]

/-- All 14 stretches together are the whole row-by-row product. -/
theorem stretches_eq_downR (A W : Swiglu.SA.Idx → EReal) (r n : Fin 4096) :
    ∑ s ∈ Finset.range 14, stretch A W r n s = Swiglu.downR A W r n := by
  rw [Swiglu.downR_stretches, Finset.sum_range]
  refine Finset.sum_congr rfl fun s _ => ?_
  unfold stretch
  refine Finset.sum_congr rfl fun j _ => ?_
  have e : colAt s.val j = (⟨s.val * 1024 + j.val, by have := s.isLt; have := j.isLt; omega⟩ : Fin 14336) :=
    Fin.ext (by show 1024 * (s.val % 14) + j.val = s.val * 1024 + j.val; have := s.isLt; omega)
  rw [e]

/-! ## What is written back, and the array the call leaves -/

/-- Two functions on a rank-2 index set that agree at every pair of coordinates are equal. -/
theorem funext_ix2 {n0 n1 : ℕ} {α : Type} (f g : (⟨2, ![n0, n1]⟩ : Shape).Idx → α)
    (h : ∀ (a : Fin n0) (b : Fin n1), f (ix2 a b) = g (ix2 a b)) : f = g :=
  funext fun y => by rw [eq_ix2 y]; exact h _ _

/-- The flat down-projection of the specification, as contents of the result array. -/
abbrev outArr (c : Dev nD) : Buf (Elt Ideal) ((c : Thread nD τ).loc main_v6) :=
  Swiglu.downArr (V c main_v5) (V c main_v4)

/-- At a point with k = 13 the block written back is the point's block of the down-projection. -/
theorem flushed1_2 (c : Dev nD) (t : Fin cfg1.N) (hf : (cfg1.win 2).flush t = true) :
    (dat1 V c).flushed 2 t = ((cfg1.win 2).blk t).view.read (Elt Ideal) (outArr V c) := by
  have h13 : t.val % 14 = 13 := (flush1_2 t).mp hf
  have hi := blockIdx1_2 t
  have hN : t.val < 112 := t.isLt
  show (cfg1.win 2).cut (grid1.coords t) ((dat1 V c).after 2 t) = _
  rw [after1_2]
  refine funext_ix2 (n0 := 512) (n1 := 4096) _ _ fun p q => ?_
  refine Eq.trans (b := accAt1 V c t.val t.isLt (ix2 p q)) rfl ?_
  rw [acc_apply V c t.val t.isLt p q, h13]
  show ∑ s ∈ Finset.range 14, _ = _
  rw [stretches_eq_downR, View.read_apply]
  show Swiglu.downR (V c main_v5) (V c main_v4) (rowAt t.val p) q = Swiglu.downR (V c main_v5) (V c main_v4) _ _
  congr 1
  · apply Fin.ext
    show 512 * (t.val / 14 % 8) + p.val = win1_2.index t 0 * 512 + 1 * p.val
    rw [hi.1]; omega
  · apply Fin.ext
    show q.val = win1_2.index t 1 * 4096 + 1 * q.val
    rw [hi.2]; omega

/-- Every entry of the result lies in the block of a point with k = 13: row r in that of the point 14·(r / 512) + 13. -/
theorem cover1_2 (i : S4096x4096.Idx) :
    ∃ t : Fin cfg1.N, (cfg1.win 2).flush t = true ∧ i ∈ ((cfg1.win 2).blk t).view.set := by
  have h0 : (i 0 : ℕ) < 4096 := (i 0).isLt
  have h1 : (i 1 : ℕ) < 4096 := (i 1).isLt
  let t : Fin cfg1.N := ⟨14 * ((i 0 : ℕ) / 512) + 13, by show _ < 112; omega⟩
  have ht : t.val = 14 * ((i 0 : ℕ) / 512) + 13 := rfl
  have hi := blockIdx1_2 t
  refine ⟨t, (flush1_2 t).mpr (by rw [ht]; omega), ?_⟩
  show i ∈ ((View.whole main_v6).slice (win1_2.rect t)).set
  rw [View.set_slice_whole, Rect.mem_set_unit]
  intro a
  match a with
  | ⟨0, _⟩ =>
    show win1_2.index t 0 * 512 ≤ (i 0 : ℕ) ∧ (i 0 : ℕ) < win1_2.index t 0 * 512 + 512
    rw [hi.1, ht]; omega
  | ⟨1, _⟩ =>
    show win1_2.index t 1 * 4096 ≤ (i 1 : ℕ) ∧ (i 1 : ℕ) < win1_2.index t 1 * 4096 + 4096
    rw [hi.2]; omega

end DownValue

/-- THE VALUE of the down call: its result array ends holding the flat down-projection of the activations it was
    handed against the down matrix. -/
theorem arr1_2 (V : (c : Dev nD) → (b : Ref sig .tc) → Buf (Elt Ideal) ((c : Thread nD τ).loc b)) (c : Dev nD) :
    (dat1 (F := Ideal) V c).arrAt 2 cfg1.N = Swiglu.downArr (V c main_v5) (V c main_v4) :=
  (dat1 (F := Ideal) V c).arrAt_eq_of_cover 2 (DownValue.outArr V c) (DownValue.flushed1_2 V c) DownValue.cover1_2

end Cert.KernelIdeal.Hand

end
-- ==== Proof.RefValue.lean ====
/-
  The reference computes the specification.

  Over the extended reals the reference forms, for every row (b, s) of the activations,
    g(i) = Σ_h x(b, s, h) · Wg(i, h),   u(i) = Σ_h x(b, s, h) · Wu(i, h),
  then g(i) · (1 / (1 + e^(-g(i)))), then the product with u(i), and at last
    out(b, s, n) = Σ_i (g(i) · (1 / (1 + e^(-g(i)))) · u(i)) · Wd(n, i).
  The quotient 1 / (1 + e^(-g)) is the logistic function of g by its definition, and the word 0x3F800000 denotes 1, so this is
  the function Swiglu.G of the four arrays, index by index: the three sums range over the same index sets with the same summands.
-/
import proofs.«175266_j37907381355066_1_alg».proof.Defs
import proofs.«175266_j37907381355066_1_alg».proof.Proof.Gen.ReferenceIdeal.Run
import proofs.«175266_j37907381355066_1_alg».proof.Proof.Gen.ReferenceIdeal.Read
import proofs.«175266_j37907381355066_1_alg».proof.Proof.Spec
import Idealize.ShloMosaic.PureOps.Ideal
import Idealize.ShloMosaic.Lib.IdealHost
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Where each sum reads its operands -/

/-- The last sum at (b, s, n) reads the gated activations at (b, s, k). -/
theorem lidx4 (b : Fin 2) (s : Fin 2048) (n : Fin 4096) (k : Fin 14336) :
    lidx_main_v4 (ix3 b s n) k = ix3 b s k :=
  funext fun a => Fin.ext (by match a with | ⟨0, _⟩ => rfl | ⟨1, _⟩ => rfl | ⟨2, _⟩ => rfl)

/-- The last sum at (b, s, n) reads the down matrix at (n, k). -/
theorem ridx4 (b : Fin 2) (s : Fin 2048) (n : Fin 4096) (k : Fin 14336) :
    ridx_main_v4 (ix3 b s n) k = ix2 n k :=
  funext fun a => Fin.ext (by match a with | ⟨0, _⟩ => rfl | ⟨1, _⟩ => rfl)

/-- The gate projection at (b, s, i) reads the activations at (b, s, h). -/
theorem lidx0 (b : Fin 2) (s : Fin 2048) (i : Fin 14336) (h : Fin 4096) :
    lidx_main_v0 (ix3 b s i) h = ix3 b s h :=
  funext fun a => Fin.ext (by match a with | ⟨0, _⟩ => rfl | ⟨1, _⟩ => rfl | ⟨2, _⟩ => rfl)

/-- The gate projection at (b, s, i) reads the gate matrix at (i, h). -/
theorem ridx0 (b : Fin 2) (s : Fin 2048) (i : Fin 14336) (h : Fin 4096) :
    ridx_main_v0 (ix3 b s i) h = ix2 i h :=
  funext fun a => Fin.ext (by match a with | ⟨0, _⟩ => rfl | ⟨1, _⟩ => rfl)

/-- The up projection at (b, s, i) reads the activations at (b, s, h). -/
theorem lidx1 (b : Fin 2) (s : Fin 2048) (i : Fin 14336) (h : Fin 4096) :
    lidx_main_v1 (ix3 b s i) h = ix3 b s h :=
  funext fun a => Fin.ext (by match a with | ⟨0, _⟩ => rfl | ⟨1, _⟩ => rfl | ⟨2, _⟩ => rfl)

/-- The up projection at (b, s, i) reads the up matrix at (i, h). -/
theorem ridx1 (b : Fin 2) (s : Fin 2048) (i : Fin 14336) (h : Fin 4096) :
    ridx_main_v1 (ix3 b s i) h = ix2 i h :=
  funext fun a => Fin.ext (by match a with | ⟨0, _⟩ => rfl | ⟨1, _⟩ => rfl)

/-! ## The two projections and the gated activation -/

/-- The first sum is the gate projection. -/
theorem gate_eq (x0 : (⟨S2x2048x4096, .f32⟩ : BufTy).Contents (Elt Ideal)) (x1 : (⟨S14336x4096, .f32⟩ : BufTy).Contents (Elt Ideal))
    (b : Fin 2) (s : Fin 2048) (i : Fin 14336) :
    val_main_v0 (F := Ideal) x0 x1 (ix3 b s i) = Swiglu.proj x0 x1 b s i := by
  rw [val_main_v0_apply]
  unfold Swiglu.proj
  refine Finset.sum_congr rfl fun h _ => ?_
  rw [lidx0, ridx0]

/-- The second sum is the up projection. -/
theorem up_eq (x0 : (⟨S2x2048x4096, .f32⟩ : BufTy).Contents (Elt Ideal)) (x2 : (⟨S14336x4096, .f32⟩ : BufTy).Contents (Elt Ideal))
    (b : Fin 2) (s : Fin 2048) (i : Fin 14336) :
    val_main_v1 (F := Ideal) x0 x2 (ix3 b s i) = Swiglu.proj x0 x2 b s i := by
  rw [val_main_v1_apply]
  unfold Swiglu.proj
  refine Finset.sum_congr rfl fun h _ => ?_
  rw [lidx1, ridx1]

/-- The product of the three pointwise stages is the gated activation: 1 / (1 + e^(-g)) is the logistic function of g. -/
theorem act_eq (x0 : (⟨S2x2048x4096, .f32⟩ : BufTy).Contents (Elt Ideal)) (x1 x2 : (⟨S14336x4096, .f32⟩ : BufTy).Contents (Elt Ideal))
    (b : Fin 2) (s : Fin 2048) (i : Fin 14336) :
    val_main_v3 (F := Ideal) x0 x1 x2 (ix3 b s i) = Swiglu.act x0 x1 x2 b s i := by
  rw [val_main_v3_apply, val_main_v2_apply, val_main_call0_v5_apply, val_main_call0_v4_apply, val_main_call0_cst_0_apply,
    val_main_call0_v3_apply, val_main_call0_v2_apply, val_main_call0_cst_apply, val_main_call0_v1_apply, val_main_call0_v0_apply,
    gate_eq, up_eq]
  simp only [Swiglu.act, Ideal.logistic, Ideal.mulf_def, Ideal.addf_def, Ideal.hostDivf_def, Ideal.hostUnary_exp_def,
    Ideal.hostNegf_def, Ideal.negf_def, Ideal.ofBits_def, Ideal.ofBits_one_f32]

/-! ## The result -/

/-- The reference's last stage is the specification. -/
theorem ref_eq (x0 : (⟨S2x2048x4096, .f32⟩ : BufTy).Contents (Elt Ideal)) (x1 x2 : (⟨S14336x4096, .f32⟩ : BufTy).Contents (Elt Ideal))
    (x3 : (⟨S4096x14336, .f32⟩ : BufTy).Contents (Elt Ideal)) :
    Cert.ReferenceIdeal.Read.val_main_v4 (F := Ideal) x0 x1 x2 x3 = Swiglu.G x0 x1 x2 x3 := by
  funext i
  obtain ⟨b, s, n, rfl⟩ : ∃ (b : Fin 2) (s : Fin 2048) (n : Fin 4096), i = ix3 b s n := ⟨i 0, i 1, i 2, eq_ix3 i⟩
  rw [Swiglu.G_apply, val_main_v4_apply]
  refine Finset.sum_congr rfl fun k _ => ?_
  rw [lidx4, ridx4, act_eq]

/-- The composed term the run states for the result buffer is the specification. -/
theorem run_term_eq (x0 : (⟨S2x2048x4096, .f32⟩ : BufTy).Contents (Elt Ideal)) (x1 x2 : (⟨S14336x4096, .f32⟩ : BufTy).Contents (Elt Ideal))
    (x3 : (⟨S4096x14336, .f32⟩ : BufTy).Contents (Elt Ideal)) :
    Host.dotGeneral (F := Ideal) (φ₁ := .f32) (φ₂ := .f32) dot_S2x2048x14336_S4096x14336_S2x2048x4096_2_1_01_0_n_n none (mulf (mulf (Host.dotGeneral (F := Ideal) (φ₁ := .f32) (φ₂ := .f32) dot_S2x2048x4096_S14336x4096_S2x2048x14336_2_1_01_0_n_n none (x0) (x1)) (Host.divf (broadcastInDim S2x2048x14336 ![] bcast_S_S2x2048x14336 (constant (F := Ideal) S_ .f32 0x3F800000#32)) (addf (broadcastInDim S2x2048x14336 ![] bcast_S_S2x2048x14336 (constant (F := Ideal) S_ .f32 0x3F800000#32)) (Host.exp (Host.negf (Host.dotGeneral (F := Ideal) (φ₁ := .f32) (φ₂ := .f32) dot_S2x2048x4096_S14336x4096_S2x2048x14336_2_1_01_0_n_n none (x0) (x1))))))) (Host.dotGeneral (F := Ideal) (φ₁ := .f32) (φ₂ := .f32) dot_S2x2048x4096_S14336x4096_S2x2048x14336_2_1_01_0_n_n none (x0) (x2))) (x3)
      = Swiglu.G x0 x1 x2 x3 :=
  (val_main_v4_eq (F := Ideal) x0 x1 x2 x3).trans (ref_eq x0 x1 x2 x3)

end Cert.ReferenceIdeal.RefValue

end
-- ==== Proof.lean ====
/-
  The gated feed-forward block out = ((x·Wgᵀ)·σ(x·Wgᵀ) ⊙ (x·Wuᵀ))·Wdᵀ computed by two matrix-unit calls — the first
  forms the gated activations tile by tile, the second multiplies them by the down matrix, accumulating the contracted
  axis in 14 stretches of 1024 columns — against the same expression written with three whole matrix products.

  On the extended reals a change of float format is the identity, the matrix unit's product into a zero accumulator is
  the plain sum of products, the logistic function is 1 / (1 + e^(-g)) on both sides, and addition is commutative and
  associative, so a sum over 14336 columns taken stretch by stretch is the sum taken at once: the two programs compute one
  function of their arguments, and no finiteness of the inputs is used.

  Each program runs to the end without fault and leaves its arguments as it found them: the two calls' launches over
  their grids for the kernel's two readings, the host operations' run for the reference.
-/
import proofs.«175266_j37907381355066_1_alg».proof.Defs
import proofs.«175266_j37907381355066_1_alg».proof.Proof.Gen.Kernel
import proofs.«175266_j37907381355066_1_alg».proof.Proof.Gen.KernelIdeal
import proofs.«175266_j37907381355066_1_alg».proof.Proof.Gen.ReferenceIdeal
import proofs.«175266_j37907381355066_1_alg».proof.Proof.Gen.Pre_finite_inputs
import proofs.«175266_j37907381355066_1_alg».proof.Proof.Gen.ReferenceIdeal.Run
import proofs.«175266_j37907381355066_1_alg».proof.Proof.K.Run
import proofs.«175266_j37907381355066_1_alg».proof.Proof.KI.Run
import proofs.«175266_j37907381355066_1_alg».proof.Proof.KI.Result
import proofs.«175266_j37907381355066_1_alg».proof.Proof.KI.GateUpValue
import proofs.«175266_j37907381355066_1_alg».proof.Proof.KI.DownValue
import proofs.«175266_j37907381355066_1_alg».proof.Proof.RefValue
import Idealize.ShloMosaic.Adequacy
import Idealize.ShloMosaic.Init

noncomputable section

namespace Cert.Proof

open Idealize.ShloMosaic Idealize.ShloMosaic.TcCoe Idealize.SL.Sem

/-- The program as printed runs to the end, faults nowhere, and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the result buffer at the gated
    feed-forward block of the arguments, element by element on the extended reals. -/
theorem algebraic : Cert.algebraic_KernelIdeal_ReferenceIdeal := by
  intro m ρ m' ρ' _ hagree
  refine ⟨fun c => Swiglu.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, ?_, ?_, ?_, ?_⟩) (Cert.KernelIdeal.Hand.run_all (F := Ideal) m ρ)
    · exact (h c _ (Cert.KernelIdeal.Hand.mem_uc Cert.KernelIdeal.main_v7 (by decide))).trans
        (Cert.KernelIdeal.Hand.result m ρ Cert.KernelIdeal.Hand.arr0_3 Cert.KernelIdeal.Hand.arr1_2 c)
    · exact (h c _ (Cert.KernelIdeal.Hand.mem_uc Cert.KernelIdeal.main_arg0 (by decide))).trans
        (Cert.KernelIdeal.Hand.W4_kept m ρ c Cert.KernelIdeal.main_arg0 (by decide) (by decide) (by decide) (by decide))
    · exact (h c _ (Cert.KernelIdeal.Hand.mem_uc Cert.KernelIdeal.main_arg1 (by decide))).trans
        (Cert.KernelIdeal.Hand.W4_kept m ρ c Cert.KernelIdeal.main_arg1 (by decide) (by decide) (by decide) (by decide))
    · exact (h c _ (Cert.KernelIdeal.Hand.mem_uc Cert.KernelIdeal.main_arg2 (by decide))).trans
        (Cert.KernelIdeal.Hand.W4_kept m ρ c Cert.KernelIdeal.main_arg2 (by decide) (by decide) (by decide) (by decide))
    · exact (h c _ (Cert.KernelIdeal.Hand.mem_uc Cert.KernelIdeal.main_arg3 (by decide))).trans
        (Cert.KernelIdeal.Hand.W4_kept m ρ c Cert.KernelIdeal.main_arg3 (by decide) (by decide) (by decide) (by decide))
  · refine (θ_run Cert.ReferenceIdeal.defs _ _).mono (fun _ h c => ⟨?_, (h c).2⟩)
      (Cert.ReferenceIdeal.Value.run (F := Ideal) m' ρ')
    rw [(h c).1, Cert.ReferenceIdeal.RefValue.run_term_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
